-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x64x128 : Shape := ⟨4, ![16, 8, 64, 128]⟩
abbrev S_ : Shape := ⟨0, ![]⟩

class Facts : Prop where
  bcast_S_S16x8x64x128 : S_.BroadcastsInDim S16x8x64x128 (![] : Fin 0 → Fin S16x8x64x128.rank)
  reducesTo_S16x8x64x128_S_d0_1_2_3 : S16x8x64x128.ReducesTo [0, 1, 2, 3] S_
  h_S_ : 0 < S_.numel

variable [Facts]

def fn {F : FTy → Type} [FloatOps F] (main_arg0 : FVec F S16x8x64x128 .f32) (main_arg1 : FVec F S16x8x64x128 .f32) : IVec S_ 1 :=
  let main_v0 : FVec F S16x8x64x128 .f32 := Host.absf main_arg0
  let main_cst : FVec F S_ .f32 := constant S_ .f32 0x7F800000#32
  let main_v1 : FVec F S16x8x64x128 .f32 := broadcastInDim S16x8x64x128 ![] bcast_S_S16x8x64x128 main_cst
  let main_v2 : IVec S16x8x64x128 1 := cmpf .olt main_v0 main_v1
  let main_c : IVec S_ 1 := constantI S_ 1 1#1
  let main_v3 : IVec S_ 1 := (fun x v => Host.reduce IntOp.andi x v reducesTo_S16x8x64x128_S_d0_1_2_3 h_S_) main_v2 main_c
  let main_v4 : FVec F S16x8x64x128 .f32 := Host.absf main_arg1
  let main_cst_0 : FVec F S_ .f32 := constant S_ .f32 0x7F800000#32
  let main_v5 : FVec F S16x8x64x128 .f32 := broadcastInDim S16x8x64x128 ![] bcast_S_S16x8x64x128 main_cst_0
  let main_v6 : IVec S16x8x64x128 1 := cmpf .olt main_v4 main_v5
  let main_c_1 : IVec S_ 1 := constantI S_ 1 1#1
  let main_v7 : IVec S_ 1 := (fun x v => Host.reduce IntOp.andi x v reducesTo_S16x8x64x128_S_d0_1_2_3 h_S_) main_v6 main_c_1
  let main_v8 : IVec S_ 1 := andi main_v3 main_v7
  main_v8
-- ==== Kernel.lean ====
abbrev S16x8x64x128 : Shape := ⟨4, ![16, 8, 64, 128]⟩
abbrev S16x8x64x64 : Shape := ⟨4, ![16, 8, 64, 64]⟩
abbrev S1x8x64x128 : Shape := ⟨4, ![1, 8, 64, 128]⟩
abbrev S1x8x64x64 : Shape := ⟨4, ![1, 8, 64, 64]⟩
abbrev S1x1x64x128 : Shape := ⟨4, ![1, 1, 64, 128]⟩
abbrev S64x128 : Shape := ⟨2, ![64, 128]⟩
abbrev S64 : Shape := ⟨1, ![64]⟩
abbrev S64x1 : Shape := ⟨2, ![64, 1]⟩
abbrev S64x64 : Shape := ⟨2, ![64, 64]⟩
abbrev S64x1x128 : Shape := ⟨3, ![64, 1, 128]⟩
abbrev S1x64x128 : Shape := ⟨3, ![1, 64, 128]⟩
abbrev S64x64x128 : Shape := ⟨3, ![64, 64, 128]⟩
abbrev S1x1x64x64 : Shape := ⟨4, ![1, 1, 64, 64]⟩
abbrev S16x8x64x64x1 : Shape := ⟨5, ![16, 8, 64, 64, 1]⟩
abbrev S16x8x64x64x3 : Shape := ⟨5, ![16, 8, 64, 64, 3]⟩
abbrev S16x32768x3 : Shape := ⟨3, ![16, 32768, 3]⟩

abbrev nBuf : Space → Nat
  | .hbm => 10
  | .vmem => 10
  | .smem => 0
  | _ => 0

abbrev bufTy : (tb : Table) → Fin (tcTables nBuf tb) → BufTy
  | .hbm, ⟨0, _⟩ => ⟨S16x8x64x128, .f32⟩
  | .hbm, ⟨1, _⟩ => ⟨S16x8x64x128, .f32⟩
  | .hbm, ⟨2, _⟩ => ⟨S16x8x64x64, .f32⟩
  | .hbm, ⟨3, _⟩ => ⟨S16x8x64x64, .f32⟩
  | .hbm, ⟨4, _⟩ => ⟨S16x8x64x64, .f32⟩
  | .hbm, ⟨5, _⟩ => ⟨S16x8x64x64x1, .f32⟩
  | .hbm, ⟨6, _⟩ => ⟨S16x8x64x64x1, .f32⟩
  | .hbm, ⟨7, _⟩ => ⟨S16x8x64x64x1, .f32⟩
  | .hbm, ⟨8, _⟩ => ⟨S16x8x64x64x3, .f32⟩
  | .hbm, ⟨9, _⟩ => ⟨S16x32768x3, .f32⟩
  | .local _ .vmem, ⟨0, _⟩ => ⟨S1x8x64x128, .f32⟩
  | .local _ .vmem, ⟨1, _⟩ => ⟨S1x8x64x128, .f32⟩
  | .local _ .vmem, ⟨2, _⟩ => ⟨S1x8x64x128, .f32⟩
  | .local _ .vmem, ⟨3, _⟩ => ⟨S1x8x64x128, .f32⟩
  | .local _ .vmem, ⟨4, _⟩ => ⟨S1x8x64x64, .f32⟩
  | .local _ .vmem, ⟨5, _⟩ => ⟨S1x8x64x64, .f32⟩
  | .local _ .vmem, ⟨6, _⟩ => ⟨S1x8x64x64, .f32⟩
  | .local _ .vmem, ⟨7, _⟩ => ⟨S1x8x64x64, .f32⟩
  | .local _ .vmem, ⟨8, _⟩ => ⟨S1x8x64x64, .f32⟩
  | .local _ .vmem, ⟨9, _⟩ => ⟨S1x8x64x64, .f32⟩
  | _, _ => ⟨S16x8x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x8x64x128_S1x1x64x128_0_0_0_0 : ∀ a, (![0, 0, 0, 0] : Fin 4 → Nat) a + S1x1x64x128.size a ≤ S1x8x64x128.size a
  h_S1x1x64x128 : 0 < S1x1x64x128.numel
  shapeCasts_S1x1x64x128_S64x128 : S1x1x64x128.ShapeCasts S64x128
  reduces_S64x128_S64 : S64x128.Reduces [1] S64
  shapeCasts_S64_S64x1 : S64.ShapeCasts S64x1
  broadcasts_S64x1_S64x128 : S64x1.Broadcasts S64x128
  bitsLt_bf16_f32 : FTy.bits .bf16 < FTy.bits .f32
  shapeCasts_S64x128_S64x1x128 : S64x128.ShapeCasts S64x1x128
  shapeCasts_S64x128_S1x64x128 : S64x128.ShapeCasts S1x64x128
  broadcasts_S64x1x128_S64x64x128 : S64x1x128.Broadcasts S64x64x128
  broadcasts_S1x64x128_S64x64x128 : S1x64x128.Broadcasts S64x64x128
  reduces_S64x64x128_S64x64 : S64x64x128.Reduces [2] S64x64
  inb_S1x8x64x64_S1x1x64x64_0_0_0_0 : ∀ a, (![0, 0, 0, 0] : Fin 4 → Nat) a + S1x1x64x64.size a ≤ S1x8x64x64.size a
  h_S1x1x64x64 : 0 < S1x1x64x64.numel
  shapeCasts_S1x1x64x64_S64x64 : S1x1x64x64.ShapeCasts S64x64
  shapeCasts_S64x64_S1x1x64x64 : S64x64.ShapeCasts S1x1x64x64
  inb_S1x8x64x128_S1x1x64x128_0_1_0_0 : ∀ a, (![0, 1, 0, 0] : Fin 4 → Nat) a + S1x1x64x128.size a ≤ S1x8x64x128.size a
  inb_S1x8x64x64_S1x1x64x64_0_1_0_0 : ∀ a, (![0, 1, 0, 0] : Fin 4 → Nat) a + S1x1x64x64.size a ≤ S1x8x64x64.size a
  inb_S1x8x64x128_S1x1x64x128_0_2_0_0 : ∀ a, (![0, 2, 0, 0] : Fin 4 → Nat) a + S1x1x64x128.size a ≤ S1x8x64x128.size a
  inb_S1x8x64x64_S1x1x64x64_0_2_0_0 : ∀ a, (![0, 2, 0, 0] : Fin 4 → Nat) a + S1x1x64x64.size a ≤ S1x8x64x64.size a
  inb_S1x8x64x128_S1x1x64x128_0_3_0_0 : ∀ a, (![0, 3, 0, 0] : Fin 4 → Nat) a + S1x1x64x128.size a ≤ S1x8x64x128.size a
  inb_S1x8x64x64_S1x1x64x64_0_3_0_0 : ∀ a, (![0, 3, 0, 0] : Fin 4 → Nat) a + S1x1x64x64.size a ≤ S1x8x64x64.size a
  inb_S1x8x64x128_S1x1x64x128_0_4_0_0 : ∀ a, (![0, 4, 0, 0] : Fin 4 → Nat) a + S1x1x64x128.size a ≤ S1x8x64x128.size a
  inb_S1x8x64x64_S1x1x64x64_0_4_0_0 : ∀ a, (![0, 4, 0, 0] : Fin 4 → Nat) a + S1x1x64x64.size a ≤ S1x8x64x64.size a
  inb_S1x8x64x128_S1x1x64x128_0_5_0_0 : ∀ a, (![0, 5, 0, 0] : Fin 4 → Nat) a + S1x1x64x128.size a ≤ S1x8x64x128.size a
  inb_S1x8x64x64_S1x1x64x64_0_5_0_0 : ∀ a, (![0, 5, 0, 0] : Fin 4 → Nat) a + S1x1x64x64.size a ≤ S1x8x64x64.size a
  inb_S1x8x64x128_S1x1x64x128_0_6_0_0 : ∀ a, (![0, 6, 0, 0] : Fin 4 → Nat) a + S1x1x64x128.size a ≤ S1x8x64x128.size a
  inb_S1x8x64x64_S1x1x64x64_0_6_0_0 : ∀ a, (![0, 6, 0, 0] : Fin 4 → Nat) a + S1x1x64x64.size a ≤ S1x8x64x64.size a
  inb_S1x8x64x128_S1x1x64x128_0_7_0_0 : ∀ a, (![0, 7, 0, 0] : Fin 4 → Nat) a + S1x1x64x128.size a ≤ S1x8x64x128.size a
  inb_S1x8x64x64_S1x1x64x64_0_7_0_0 : ∀ a, (![0, 7, 0, 0] : Fin 4 → Nat) a + S1x1x64x64.size a ≤ S1x8x64x64.size a
  bcast_S16x8x64x64_S16x8x64x64x1_0_1_2_3 : S16x8x64x64.BroadcastsInDim S16x8x64x64x1 (![0, 1, 2, 3] : Fin 4 → Fin S16x8x64x64x1.rank)
  concatenates_S16x8x64x64x1_S16x8x64x64x1_S16x8x64x64x1_S16x8x64x64x3_d4 : Shape.Concatenates [S16x8x64x64x1, S16x8x64x64x1, S16x8x64x64x1] S16x8x64x64x3 4
  shapeCasts_S16x8x64x64x3_S16x32768x3 : S16x8x64x64x3.ShapeCasts S16x32768x3
  dot_S64x128_S64x128_S64x64_1_1_0_0_n_n_wf : DotDims.WF S64x128 S64x128 S64x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x64x128.size a ≤ S16x8x64x128.size a
  hwx0_0 : ∀ i : grid0.Coords, EltTy.bits .f32 = 32 ∨ (Rect.block (s := S16x8x64x128) S1x8x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x64x128.size a ≤ S16x8x64x128.size a
  hwx0_1 : ∀ i : grid0.Coords, EltTy.bits .f32 = 32 ∨ (Rect.block (s := S16x8x64x128) S1x8x64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x64x64.size a ≤ S16x8x64x64.size a
  hwx0_2 : ∀ i : grid0.Coords, EltTy.bits .f32 = 32 ∨ (Rect.block (s := S16x8x64x64) S1x8x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x64x64.size a ≤ S16x8x64x64.size a
  hwx0_3 : ∀ i : grid0.Coords, EltTy.bits .f32 = 32 ∨ (Rect.block (s := S16x8x64x64) S1x8x64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x64x64.size a ≤ S16x8x64x64.size a
  hwx0_4 : ∀ i : grid0.Coords, EltTy.bits .f32 = 32 ∨ (Rect.block (s := S16x8x64x64) S1x8x64x64.size (cc0_transform_4 i) (hinb0_4 i)).WholeWords (EltTy.packing .f32)

variable [Facts₀]

def dot_S64x128_S64x128_S64x64_1_1_0_0_n_n : DotDims S64x128 S64x128 S64x64 where
  lhsContracting := [1]
  rhsContracting := [1]
  lhsNonContracting := [0]
  rhsNonContracting := [0]
  lhsBatch := []
  rhsBatch := []
  wf := dot_S64x128_S64x128_S64x64_1_1_0_0_n_n_wf

abbrev win0_0 : Pipeline.Window sig grid0 :=
  Pipeline.Window.ofSpec (Memref.whole main_arg0) S1x8x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x8x64x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8x64x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x8x64x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x8x64x128 : Shape := ⟨4, ![16, 8, 64, 128]⟩
abbrev S_ : Shape := ⟨0, ![]⟩
abbrev S16x8x64 : Shape := ⟨3, ![16, 8, 64]⟩
abbrev S16x8x64x1 : Shape := ⟨4, ![16, 8, 64, 1]⟩
abbrev S16x8x64x64 : Shape := ⟨4, ![16, 8, 64, 64]⟩
abbrev S16x8x64x1x128 : Shape := ⟨5, ![16, 8, 64, 1, 128]⟩
abbrev S16x8x1x64x128 : Shape := ⟨5, ![16, 8, 1, 64, 128]⟩
abbrev S16x8x64x64x128 : Shape := ⟨5, ![16, 8, 64, 64, 128]⟩
abbrev S16x8x64x64x1 : Shape := ⟨5, ![16, 8, 64, 64, 1]⟩
abbrev S16x8x64x64x3 : Shape := ⟨5, ![16, 8, 64, 64, 3]⟩
abbrev S16x32768x3 : Shape := ⟨3, ![16, 32768, 3]⟩

abbrev nBuf : Space → Nat
  | .hbm => 40
  | .vmem => 0
  | .smem => 0
  | _ => 0

abbrev bufTy : (tb : Table) → Fin (tcTables nBuf tb) → BufTy
  | .hbm, ⟨0, _⟩ => ⟨S16x8x64x128, .f32⟩
  | .hbm, ⟨1, _⟩ => ⟨S16x8x64x128, .f32⟩
  | .hbm, ⟨2, _⟩ => ⟨S16x8x64x128, .f32⟩
  | .hbm, ⟨3, _⟩ => ⟨S_, .f32⟩
  | .hbm, ⟨4, _⟩ => ⟨S16x8x64, .f32⟩
  | .hbm, ⟨5, _⟩ => ⟨S16x8x64x1, .f32⟩
  | .hbm, ⟨6, _⟩ => ⟨S16x8x64x1, .f32⟩
  | .hbm, ⟨7, _⟩ => ⟨S_, .f32⟩
  | .hbm, ⟨8, _⟩ => ⟨S16x8x64x1, .f32⟩
  | .hbm, ⟨9, _⟩ => ⟨S16x8x64x1, .f32⟩
  | .hbm, ⟨10, _⟩ => ⟨S16x8x64x128, .f32⟩
  | .hbm, ⟨11, _⟩ => ⟨S16x8x64x128, .f32⟩
  | .hbm, ⟨12, _⟩ => ⟨S16x8x64x128, .f32⟩
  | .hbm, ⟨13, _⟩ => ⟨S_, .f32⟩
  | .hbm, ⟨14, _⟩ => ⟨S16x8x64, .f32⟩
  | .hbm, ⟨15, _⟩ => ⟨S16x8x64x1, .f32⟩
  | .hbm, ⟨16, _⟩ => ⟨S16x8x64x1, .f32⟩
  | .hbm, ⟨17, _⟩ => ⟨S_, .f32⟩
  | .hbm, ⟨18, _⟩ => ⟨S16x8x64x1, .f32⟩
  | .hbm, ⟨19, _⟩ => ⟨S16x8x64x1, .f32⟩
  | .hbm, ⟨20, _⟩ => ⟨S16x8x64x128, .f32⟩
  | .hbm, ⟨21, _⟩ => ⟨S16x8x64x128, .f32⟩
  | .hbm, ⟨22, _⟩ => ⟨S16x8x64x64, .f32⟩
  | .hbm, ⟨23, _⟩ => ⟨S16x8x64x1x128, .f32⟩
  | .hbm, ⟨24, _⟩ => ⟨S16x8x1x64x128, .f32⟩
  | .hbm, ⟨25, _⟩ => ⟨S16x8x64x64x128, .f32⟩
  | .hbm, ⟨26, _⟩ => ⟨S16x8x64x64x128, .f32⟩
  | .hbm, ⟨27, _⟩ => ⟨S16x8x64x64x128, .f32⟩
  | .hbm, ⟨28, _⟩ => ⟨S16x8x64x64x128, .f32⟩
  | .hbm, ⟨29, _⟩ => ⟨S_, .f32⟩
  | .hbm, ⟨30, _⟩ => ⟨S16x8x64x64, .f32⟩
  | .hbm, ⟨31, _⟩ => ⟨S16x8x64x64, .f32⟩
  | .hbm, ⟨32, _⟩ => ⟨S16x8x64x64x128, .f32⟩
  | .hbm, ⟨33, _⟩ => ⟨S_, .f32⟩
  | .hbm, ⟨34, _⟩ => ⟨S16x8x64x64, .f32⟩
  | .hbm, ⟨35, _⟩ => ⟨S16x8x64x64x1, .f32⟩
  | .hbm, ⟨36, _⟩ => ⟨S16x8x64x64x1, .f32⟩
  | .hbm, ⟨37, _⟩ => ⟨S16x8x64x64x1, .f32⟩
  | .hbm, ⟨38, _⟩ => ⟨S16x8x64x64x3, .f32⟩
  | .hbm, ⟨39, _⟩ => ⟨S16x32768x3, .f32⟩
  | _, _ => ⟨S16x8x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  reducesTo_S16x8x64x128_S16x8x64_d3 : S16x8x64x128.ReducesTo [3] S16x8x64
  h_S_ : 0 < S_.numel
  bcast_S16x8x64_S16x8x64x1_0_1_2 : S16x8x64.BroadcastsInDim S16x8x64x1 (![0, 1, 2] : Fin 3 → Fin S16x8x64x1.rank)
  bcast_S_S16x8x64x1 : S_.BroadcastsInDim S16x8x64x1 (![] : Fin 0 → Fin S16x8x64x1.rank)
  bcast_S16x8x64x1_S16x8x64x128_0_1_2_3 : S16x8x64x1.BroadcastsInDim S16x8x64x128 (![0, 1, 2, 3] : Fin 4 → Fin S16x8x64x128.rank)
  bcast_S16x8x64x128_S16x8x64x1x128_0_1_2_4 : S16x8x64x128.BroadcastsInDim S16x8x64x1x128 (![0, 1, 2, 4] : Fin 4 → Fin S16x8x64x1x128.rank)
  bcast_S16x8x64x128_S16x8x1x64x128_0_1_3_4 : S16x8x64x128.BroadcastsInDim S16x8x1x64x128 (![0, 1, 3, 4] : Fin 4 → Fin S16x8x1x64x128.rank)
  bcast_S16x8x64x1x128_S16x8x64x64x128_0_1_2_3_4 : S16x8x64x1x128.BroadcastsInDim S16x8x64x64x128 (![0, 1, 2, 3, 4] : Fin 5 → Fin S16x8x64x64x128.rank)
  bcast_S16x8x1x64x128_S16x8x64x64x128_0_1_2_3_4 : S16x8x1x64x128.BroadcastsInDim S16x8x64x64x128 (![0, 1, 2, 3, 4] : Fin 5 → Fin S16x8x64x64x128.rank)
  reducesTo_S16x8x64x64x128_S16x8x64x64_d4 : S16x8x64x64x128.ReducesTo [4] S16x8x64x64
  bcast_S16x8x64x64_S16x8x64x64x1_0_1_2_3 : S16x8x64x64.BroadcastsInDim S16x8x64x64x1 (![0, 1, 2, 3] : Fin 4 → Fin S16x8x64x64x1.rank)
  concatenates_S16x8x64x64x1_S16x8x64x64x1_S16x8x64x64x1_S16x8x64x64x3_d4 : Shape.Concatenates [S16x8x64x64x1, S16x8x64x64x1, S16x8x64x64x1] S16x8x64x64x3 4
  shapeCasts_S16x8x64x64x3_S16x32768x3 : S16x8x64x64x3.ShapeCasts S16x32768x3
  dot_S16x8x64x128_S16x8x64x128_S16x8x64x64_3_3_2_2_01_01_wf : DotDims.WF S16x8x64x128 S16x8x64x128 S16x8x64x64 [3] [3] [2] [2] [0, 1] [0, 1]

variable [Facts₀]

def dot_S16x8x64x128_S16x8x64x128_S16x8x64x64_3_3_2_2_01_01 : DotDims S16x8x64x128 S16x8x64x128 S16x8x64x64 where
  lhsContracting := [3]
  rhsContracting := [3]
  lhsNonContracting := [2]
  rhsNonContracting := [2]
  lhsBatch := [0, 1]
  rhsBatch := [0, 1]
  wf := dot_S16x8x64x128_S16x8x64x128_S16x8x64x64_3_3_2_2_01_01_wf

class Facts : Prop extends Facts₀ where

variable [Facts]
-- ==== Proof.KernelRegion.lean ====
/-
  The program `Kernel` as one run, at any float instance.

  @main is one pipelined region over a grid of sixteen points followed by five host lines. At grid point `s` the
  region stages block `s` of each argument (eight matrices of 64 rows by 128 columns each), and the body fills the
  three output blocks matrix by matrix: for `p = 0 … 7` it reads the `p`-th matrix `x` of the first block and the
  `p`-th matrix `y` of the second and stores, at row-plane `p` of the three output blocks, the 64 × 64 matrices
  of normalised inner products, of Euclidean distances and of absolute-difference sums between the rows of `x` and
  the rows of `y`. The eight stores into an output block tile it, so what the block holds after the body is a function of the
  two staged argument blocks alone, whatever it held before (the body also loads each output plane before it
  overwrites it and discards what it loaded).

  This module states that function (`cosOut`, `l2Out`, `l1Out`: the last store first), proves the body's triple
  against it, gives the pipeline its proof data — each argument's buffer left at its block, each output's at that
  function of the two blocks — and runs @main: the region, then the host lines, which touch neither argument and
  write no array of the pipeline. The run's post names every array of the pipeline after the last grid point and
  every other buffer after the host lines; the frame claim is read off it.
-/
import proofs.«102027_j84593675862346_1_alg».proof.Proof.Gen.Kernel.Launch
import proofs.«102027_j84593675862346_1_alg».proof.Proof.Gen.Kernel.Skeleton
import proofs.«102027_j84593675862346_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main: the region, then the host lines -/

/-- What core `c`'s buffers hold when the region is entered. No host line precedes the region, so these are the
    launch contents (the fold of an empty list of lines over them). -/
abbrev atEntry (c : Dev nD) : Valuation τ sig (Elt F) :=
  StableHlo.after (List.flatten ([] : List (List (HloOp τ sig (Elt F))))) (fun b => m (c, b))
/-- The same read at a TensorCore buffer. -/
abbrev arrIn (c : Dev nD) (b : Ref sig .tc) : Buf (Elt F) ((c : Thread nD τ).loc b) := atEntry m c (Proc.devRef .tc b)

/-- At the region's entry a buffer holds what it was launched with. -/
theorem arrIn_eq (c : Dev nD) (b : Ref sig .tc) : arrIn m c b = m ((c : Thread nD τ).loc b) := rfl

/-- The five host lines allocate nothing. -/
theorem tail_fresh : (hostOps1 : List (HloOp τ sig (Elt F))).Forall fun op => op.fresh = ∅ := by
  simp only [List.Forall]; repeat' constructor

/-- @main is the region continued by the host lines. -/
theorem main_reduces : Pipeline.HMainK (Ix := Unit) (Name := ℕ) (U := UR sig nD τ) (Lvl := ℕ) cfgs 0 defs₀ Variants.none m (main (F := F)) (arrIn m)
      (fun _ => Pipeline.chain [StableHlo.seq hostOps1]) :=
  Pipeline.hmain_around cfgs 0 defs₀ Variants.none m main [] [hostOps1] (by simp only [List.Forall]) (by simp only [List.Forall]) main_chain

/-- The host lines touch only the pipeline's arrays and buffers that bypass the region; -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op ((List.forall_iff_forall_mem.mp hostOps1_sub) op hop)
/-- they allocate nothing; -/
theorem tail_fresh' : ∀ ops ∈ ([hostOps1] : List (List (HloOp τ sig (Elt F)))), ∀ op ∈ ops, op.fresh = ∅ := by
  intro ops hops op hop
  obtain rfl := List.mem_singleton.mp hops
  exact (List.forall_iff_forall_mem.mp tail_fresh) op hop
/-- and each writes only its own result buffer, which is none of the pipeline's five arrays (the two arguments and the
    three results of the region). -/
theorem tail_keeps : ∀ ops ∈ ([hostOps1] : List (List (HloOp τ sig (Elt F)))), ∀ op ∈ ops,
    ∀ w, Proc.devRef .tc (Pipeline.arrRef spec0 w) ∉ op.writes := by
  intro ops hops op hop
  obtain rfl := List.mem_singleton.mp hops
  simp only [hostOps1, List.mem_cons, List.mem_nil_iff, or_false] at hop
  rcases hop with rfl | rfl | rfl | rfl | rfl
  all_goals intro w; fin_cases w <;> simp only [StableHlo.unary_writes, StableHlo.nary_writes, StableHlo.reshape_writes, Finset.mem_singleton] <;> exact StableHlo.devRef_ne_of_ne (by decide)

/-! ## The staged blocks -/

/-- Window `w`'s block at grid point `t`, read off its array as the region finds it. -/
def blockIn (c : Dev nD) (w : Fin cfg0.W) (t : Fin cfg0.N) : ((cfg0.win w).xblock (cfg0.grid.coords t)).Idx → Elt F (cfg0.win w).elt :=
  ((cfg0.win w).blk t).view.read (Elt F) (arrIn m c (Pipeline.arrRef spec0 w))

/-! ## The body's accesses: row-plane `p` of an argument block and of an output block -/

abbrev xrow0 : Rect S1x8x64x128 := Rect.unit (s := S1x8x64x128) ![0, 0, 0, 0] S1x1x64x128.size inb_S1x8x64x128_S1x1x64x128_0_0_0_0
abbrev orow0 : Rect S1x8x64x64 := Rect.unit (s := S1x8x64x64) ![0, 0, 0, 0] S1x1x64x64.size inb_S1x8x64x64_S1x1x64x64_0_0_0_0
abbrev xrow1 : Rect S1x8x64x128 := Rect.unit (s := S1x8x64x128) ![0, 1, 0, 0] S1x1x64x128.size inb_S1x8x64x128_S1x1x64x128_0_1_0_0
abbrev orow1 : Rect S1x8x64x64 := Rect.unit (s := S1x8x64x64) ![0, 1, 0, 0] S1x1x64x64.size inb_S1x8x64x64_S1x1x64x64_0_1_0_0
abbrev xrow2 : Rect S1x8x64x128 := Rect.unit (s := S1x8x64x128) ![0, 2, 0, 0] S1x1x64x128.size inb_S1x8x64x128_S1x1x64x128_0_2_0_0
abbrev orow2 : Rect S1x8x64x64 := Rect.unit (s := S1x8x64x64) ![0, 2, 0, 0] S1x1x64x64.size inb_S1x8x64x64_S1x1x64x64_0_2_0_0
abbrev xrow3 : Rect S1x8x64x128 := Rect.unit (s := S1x8x64x128) ![0, 3, 0, 0] S1x1x64x128.size inb_S1x8x64x128_S1x1x64x128_0_3_0_0
abbrev orow3 : Rect S1x8x64x64 := Rect.unit (s := S1x8x64x64) ![0, 3, 0, 0] S1x1x64x64.size inb_S1x8x64x64_S1x1x64x64_0_3_0_0
abbrev xrow4 : Rect S1x8x64x128 := Rect.unit (s := S1x8x64x128) ![0, 4, 0, 0] S1x1x64x128.size inb_S1x8x64x128_S1x1x64x128_0_4_0_0
abbrev orow4 : Rect S1x8x64x64 := Rect.unit (s := S1x8x64x64) ![0, 4, 0, 0] S1x1x64x64.size inb_S1x8x64x64_S1x1x64x64_0_4_0_0
abbrev xrow5 : Rect S1x8x64x128 := Rect.unit (s := S1x8x64x128) ![0, 5, 0, 0] S1x1x64x128.size inb_S1x8x64x128_S1x1x64x128_0_5_0_0
abbrev orow5 : Rect S1x8x64x64 := Rect.unit (s := S1x8x64x64) ![0, 5, 0, 0] S1x1x64x64.size inb_S1x8x64x64_S1x1x64x64_0_5_0_0
abbrev xrow6 : Rect S1x8x64x128 := Rect.unit (s := S1x8x64x128) ![0, 6, 0, 0] S1x1x64x128.size inb_S1x8x64x128_S1x1x64x128_0_6_0_0
abbrev orow6 : Rect S1x8x64x64 := Rect.unit (s := S1x8x64x64) ![0, 6, 0, 0] S1x1x64x64.size inb_S1x8x64x64_S1x1x64x64_0_6_0_0
abbrev xrow7 : Rect S1x8x64x128 := Rect.unit (s := S1x8x64x128) ![0, 7, 0, 0] S1x1x64x128.size inb_S1x8x64x128_S1x1x64x128_0_7_0_0
abbrev orow7 : Rect S1x8x64x64 := Rect.unit (s := S1x8x64x64) ![0, 7, 0, 0] S1x1x64x64.size inb_S1x8x64x64_S1x1x64x64_0_7_0_0

/-! ## What the body leaves in the three output blocks

Each is the overlay of eight pieces, one per matrix index `p`, the last store first: at row-plane `p` the
body's value for the `p`-th pair of matrices. -/

/-- The block of normalised inner products: at plane `p`, entry `(n, k)` is the sum over the 128 columns of the products of row
    `n` of `x` and row `k` of `y`, each row first divided by the larger of its Euclidean norm and a fixed small constant. -/
def cosOut (x y : Vec F S1x8x64x128 .f32) : Vec F S1x8x64x64 .f32 :=
  View.canon [
    ⟨orow7, k0_pay2 (k0_pay63 (View.ld x xrow7)) (k0_pay64 (View.ld y xrow7)) (constant S64x64 .f32 0x00000000#32)⟩,
    ⟨orow6, k0_pay58 (k0_pay54 (View.ld x xrow6) (View.ld y xrow6))⟩,
    ⟨orow5, k0_pay49 (View.ld x xrow5) (View.ld y xrow5)⟩,
    ⟨orow4, k0_pay41 (k0_pay38 (View.ld x xrow4)) (View.ld y xrow4)⟩,
    ⟨orow3, k0_pay35 (k0_pay30 (View.ld x xrow3)) (k0_pay31 (View.ld y xrow3)) (k0_pay32 (View.ld x xrow3)) (k0_pay33 (View.ld y xrow3)) (Scalar.ofBits .f32 0x2B8CBCCC#32)⟩,
    ⟨orow2, k0_pay27 (k0_pay24 (View.ld x xrow2)) (k0_pay25 (View.ld y xrow2)) (constant S64x64 .f32 0x00000000#32)⟩,
    ⟨orow1, k0_pay19 (k0_pay15 (View.ld x xrow1) (View.ld y xrow1))⟩,
    ⟨orow0, k0_pay10 (View.ld x xrow0) (View.ld y xrow0)⟩]

/-- The block of Euclidean distances: at plane `p`, entry `(n, k)` is the square root of the sum over the columns of the squared
    differences between row `n` of `x` and row `k` of `y`. -/
def l2Out (x y : Vec F S1x8x64x128 .f32) : Vec F S1x8x64x64 .f32 :=
  View.canon [
    ⟨orow7, k0_pay3 (k0_pay61 (View.ld x xrow7)) (k0_pay62 (View.ld y xrow7))⟩,
    ⟨orow6, k0_pay59 (k0_pay56 (View.ld x xrow6) (View.ld y xrow6))⟩,
    ⟨orow5, k0_pay50 (k0_pay47 (View.ld x xrow5) (View.ld y xrow5))⟩,
    ⟨orow4, k0_pay42 (k0_pay38 (View.ld x xrow4)) (View.ld y xrow4)⟩,
    ⟨orow3, k0_pay36 (k0_pay30 (View.ld x xrow3)) (k0_pay31 (View.ld y xrow3))⟩,
    ⟨orow2, k0_pay28 (k0_pay22 (View.ld x xrow2)) (k0_pay23 (View.ld y xrow2))⟩,
    ⟨orow1, k0_pay20 (k0_pay17 (View.ld x xrow1) (View.ld y xrow1))⟩,
    ⟨orow0, k0_pay11 (k0_pay8 (View.ld x xrow0) (View.ld y xrow0))⟩]

/-- The block of absolute-difference sums: at plane `p`, entry `(n, k)` is the sum over the columns of the absolute differences
    between row `n` of `x` and row `k` of `y`. -/
def l1Out (x y : Vec F S1x8x64x128 .f32) : Vec F S1x8x64x64 .f32 :=
  View.canon [
    ⟨orow7, k0_pay4 (k0_pay61 (View.ld x xrow7)) (k0_pay62 (View.ld y xrow7))⟩,
    ⟨orow6, k0_pay60 (k0_pay57 (View.ld x xrow6) (View.ld y xrow6))⟩,
    ⟨orow5, k0_pay51 (k0_pay48 (View.ld x xrow5) (View.ld y xrow5))⟩,
    ⟨orow4, k0_pay43 (k0_pay38 (View.ld x xrow4)) (View.ld y xrow4)⟩,
    ⟨orow3, k0_pay37 (k0_pay30 (View.ld x xrow3)) (k0_pay31 (View.ld y xrow3))⟩,
    ⟨orow2, k0_pay29 (k0_pay22 (View.ld x xrow2)) (k0_pay23 (View.ld y xrow2))⟩,
    ⟨orow1, k0_pay21 (k0_pay18 (View.ld x xrow1) (View.ld y xrow1))⟩,
    ⟨orow0, k0_pay12 (k0_pay9 (View.ld x xrow0) (View.ld y xrow0))⟩]

/-- Eight row-planes tile an output block, so eight stores at them cover it, whatever they store. -/
theorem planes_cover (p0 p1 p2 p3 p4 p5 p6 p7 : Vec F S1x1x64x64 .f32) (j : S1x8x64x64.Idx) :
    ∃ pc ∈ ([⟨orow7, p7⟩, ⟨orow6, p6⟩, ⟨orow5, p5⟩, ⟨orow4, p4⟩, ⟨orow3, p3⟩, ⟨orow2, p2⟩, ⟨orow1, p1⟩, ⟨orow0, p0⟩] : List (View.Piece (Elt F) S1x8x64x64 .f32)), j ∈ pc.1.set :=
  View.cover_of_tiled [⟨orow7, p7⟩, ⟨orow6, p6⟩, ⟨orow5, p5⟩, ⟨orow4, p4⟩, ⟨orow3, p3⟩, ⟨orow2, p2⟩, ⟨orow1, p1⟩, ⟨orow0, p0⟩] S1x1x64x64.size (by rfl) j

/-! ## The body's triple -/

set_option maxHeartbeats 4000000 in
/-- On whole staging buffers, the two argument blocks at read contents `x` and `y` and the three output blocks at anything, the
    body runs to its continuation holding the argument blocks as they were and the output blocks at `cosOut x y`,
    `l2Out x y` and `l1Out x y`. -/
theorem body_runs (c : Dev nD) (E : Set ℕ) (i : grid0.Coords)
    (arg1 : Memref sig .tc .vmem S1x8x64x128 .f32) (harg1 : arg1.IsWhole) (arg2 : Memref sig .tc .vmem S1x8x64x128 .f32) (harg2 : arg2.IsWhole)
    (arg3 : Memref sig .tc .vmem S1x8x64x64 .f32) (harg3 : arg3.IsWhole) (arg4 : Memref sig .tc .vmem S1x8x64x64 .f32) (harg4 : arg4.IsWhole)
    (arg5 : Memref sig .tc .vmem S1x8x64x64 .f32) (harg5 : arg5.IsWhole)
    (x y : Vec F S1x8x64x128 .f32) (K : PUnit → sProp 𝕄) :
    iprop(owns (c : Thread nD τ) arg1 fullShare x ∗ owns (c : Thread nD τ) arg2 fullShare y
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x ∗ owns (c : Thread nD τ) arg2 fullShare y
            ∗ owns (c : Thread nD τ) arg3 fullShare (cosOut x y) ∗ owns (c : Thread nD τ) arg4 fullShare (l2Out x y)
            ∗ owns (c : Thread nD τ) arg5 fullShare (l1Out x y)) -∗ K ⟨⟩))
      ⊢ wp frame (wpE (defs₀ (F := F)) Variants.none c none) E (cc0__compare_kernel i arg1 harg1 arg2 harg2 arg3 harg3 arg4 harg4 arg5 harg5) K := by
  simp only [cc0__compare_kernel_eq_skeleton]; unfold cc0__compare_kernel_skel
  unfold owns
  iintro ⟨⟨%f1, %hf1, H1⟩, ⟨%f2, %hf2, H2⟩, ⟨%d3, %f3, -, H3⟩, ⟨%d4, %f4, -, H4⟩, ⟨%d5, %f5, -, H5⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (planes_cover _ _ _ _ _ _ _ _)
  isplitl [H4]
  · iexists _; isplitr
    swap; · iexact H4
    ipureintro
    exact View.read_writes_eq_canon _ _ _ (planes_cover _ _ _ _ _ _ _ _)
  · iexists _; isplitr
    swap; · iexact H5
    ipureintro
    exact View.read_writes_eq_canon _ _ _ (planes_cover _ _ _ _ _ _ _ _)

/-! ## The pipeline's proof data -/

/-- On core `c`: the arrays as the region finds them; after the body at grid point `t` each argument's staging buffer at
    its block and each output's at the body's function of the two argument blocks; the class's invariant (the scoped
    rest and the generator register, untouched); nothing owed; full shares. -/
def dats (_ : Fin 1) (c : Dev nD) : Dat τ (Elt F) Unit ℕ (UR sig nD τ) ℕ cfg0 c where
  A w := arrIn m c (Pipeline.arrRef spec0 w)
  after w t := match w with
    | ⟨0, _⟩ => blockIn m c 0 t
    | ⟨1, _⟩ => blockIn m c 1 t
    | ⟨2, _⟩ => cosOut (blockIn m c 0 t) (blockIn m c 1 t)
    | ⟨3, _⟩ => l2Out (blockIn m c 0 t) (blockIn m c 1 t)
    | ⟨4, _⟩ => l1Out (blockIn m c 0 t) (blockIn m c 1 t)
  Φ _ := Pipeline.ΦA spec0 c
  q _ := fullShare
  owed _ := 0

/-- The proof data's arrays are the region-entry contents. -/
theorem A_eq (c : Dev nD) (w : Fin cfg0.W) : (dats m 0 c).A w = arrIn m c (Pipeline.arrRef spec0 w) := by
  dsimp only [dats]

/-- What the body leaves, window by window. -/
theorem after0 (c : Dev nD) (t : Fin cfg0.N) : (dats m 0 c).after 0 t = blockIn m c 0 t := by dsimp only [dats]
theorem after1 (c : Dev nD) (t : Fin cfg0.N) : (dats m 0 c).after 1 t = blockIn m c 1 t := by dsimp only [dats]
theorem after2 (c : Dev nD) (t : Fin cfg0.N) : (dats m 0 c).after 2 t = cosOut (blockIn m c 0 t) (blockIn m c 1 t) := by dsimp only [dats]
theorem after3 (c : Dev nD) (t : Fin cfg0.N) : (dats m 0 c).after 3 t = l2Out (blockIn m c 0 t) (blockIn m c 1 t) := by dsimp only [dats]
theorem after4 (c : Dev nD) (t : Fin cfg0.N) : (dats m 0 c).after 4 t = l1Out (blockIn m c 0 t) (blockIn m c 1 t) := by dsimp only [dats]

/-- Each argument's current staging buffer holds its block when the body runs, at every grid point: the body leaves the
    block in place, and the window is fetched whole and is never idle. -/
theorem before0 (c : Dev nD) (t : Fin cfg0.N) (d) : (dats m 0 c).before 0 t d = blockIn m c 0 t :=
  ((dats m 0 c).before_in_eq_fetched 0 rfl (fun _ => rfl) (fun _ _ _ => rfl)
      (fun t => by rw [after0]; unfold Dat.blockOf blockIn; rw [A_eq]; try rfl) t d).trans
    (by unfold Dat.fetched Dat.blockOf blockIn; rw [A_eq]; try rfl)
theorem before1 (c : Dev nD) (t : Fin cfg0.N) (d) : (dats m 0 c).before 1 t d = blockIn m c 1 t :=
  ((dats m 0 c).before_in_eq_fetched 1 rfl (fun _ => rfl) (fun _ _ _ => rfl)
      (fun t => by rw [after1]; unfold Dat.blockOf blockIn; rw [A_eq]; try rfl) t d).trans
    (by unfold Dat.fetched Dat.blockOf blockIn; rw [A_eq]; try rfl)

/-! ## The body obligation -/

/-- What the body is called with at grid point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any grid point: the argument buffers hold their blocks, so the body's triple applies; the invariant and
    what the core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (body_runs c Set.univ (grid0.coords t) _ _ _ _ _ _ _ _ _ _ (blockIn m c 0 t) (blockIn m c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every grid point. -/
theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- From any memory with zero counters every weakly fair execution of @main on the TensorCores terminates, and in every
    final state each array of the pipeline holds what the write-backs of all sixteen grid points leave and every other
    unscoped buffer what the host lines compute from those arrays. -/
theorem run_main : θ_run defs (onTc (τ := τ) (main (F := F))) (s₀ m ρ)
    (Pipeline.FramePost cfgs (dats m) 0 (Pipeline.afterTail₀ cfgs (dats m) 0 (atEntry m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := atEntry m) (opss := [hostOps1]) (hsub := tail_sub) (hfresh := tail_fresh') (hkeep := tail_keeps)
    (hmain := main_reduces m) (hA := A_eq m) (hΦ := fun _ _ => rfl)

/-- The two argument arrays end as they were launched: each is an array of the pipeline that no grid point writes back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (arrIn_eq m c main_arg0))),
     ((h c).1 1).trans (((dats m 0 c).arrAt_in 1 rfl _).trans ((A_eq m c 1).trans (arrIn_eq m c main_arg1)))⟩) (run_main m ρ)

end Cert.Kernel.Region

end
-- ==== Proof.KernelIdealRegion.lean ====
/-
  The program `KernelIdeal` as one run, at any float instance.

  @main is one pipelined region over a grid of sixteen points followed by five host lines. At grid point `s` the
  region stages block `s` of each argument (eight matrices of 64 rows by 128 columns each), and the body fills the
  three output blocks matrix by matrix: for `p = 0 … 7` it reads the `p`-th matrix `x` of the first block and the
  `p`-th matrix `y` of the second and stores, at row-plane `p` of the three output blocks, the 64 × 64 matrices
  of normalised inner products, of Euclidean distances and of absolute-difference sums between the rows of `x` and
  the rows of `y`. The eight stores into an output block tile it, so what the block holds after the body is a function of the
  two staged argument blocks alone, whatever it held before (the body also loads each output plane before it
  overwrites it and discards what it loaded).

  This module states that function (`cosOut`, `l2Out`, `l1Out`: the last store first), proves the body's triple
  against it, gives the pipeline its proof data — each argument's buffer left at its block, each output's at that
  function of the two blocks — and runs @main: the region, then the host lines, which touch neither argument and
  write no array of the pipeline. The run's post names every array of the pipeline after the last grid point and
  every other buffer after the host lines; the frame claim is read off it.
-/
import proofs.«102027_j84593675862346_1_alg».proof.Proof.Gen.KernelIdeal.Launch
import proofs.«102027_j84593675862346_1_alg».proof.Proof.Gen.KernelIdeal.Skeleton
import proofs.«102027_j84593675862346_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main: the region, then the host lines -/

/-- What core `c`'s buffers hold when the region is entered. No host line precedes the region, so these are the
    launch contents (the fold of an empty list of lines over them). -/
abbrev atEntry (c : Dev nD) : Valuation τ sig (Elt F) :=
  StableHlo.after (List.flatten ([] : List (List (HloOp τ sig (Elt F))))) (fun b => m (c, b))
/-- The same read at a TensorCore buffer. -/
abbrev arrIn (c : Dev nD) (b : Ref sig .tc) : Buf (Elt F) ((c : Thread nD τ).loc b) := atEntry m c (Proc.devRef .tc b)

/-- At the region's entry a buffer holds what it was launched with. -/
theorem arrIn_eq (c : Dev nD) (b : Ref sig .tc) : arrIn m c b = m ((c : Thread nD τ).loc b) := rfl

/-- The five host lines allocate nothing. -/
theorem tail_fresh : (hostOps1 : List (HloOp τ sig (Elt F))).Forall fun op => op.fresh = ∅ := by
  simp only [List.Forall]; repeat' constructor

/-- @main is the region continued by the host lines. -/
theorem main_reduces : Pipeline.HMainK (Ix := Unit) (Name := ℕ) (U := UR sig nD τ) (Lvl := ℕ) cfgs 0 defs₀ Variants.none m (main (F := F)) (arrIn m)
      (fun _ => Pipeline.chain [StableHlo.seq hostOps1]) :=
  Pipeline.hmain_around cfgs 0 defs₀ Variants.none m main [] [hostOps1] (by simp only [List.Forall]) (by simp only [List.Forall]) main_chain

/-- The host lines touch only the pipeline's arrays and buffers that bypass the region; -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op ((List.forall_iff_forall_mem.mp hostOps1_sub) op hop)
/-- they allocate nothing; -/
theorem tail_fresh' : ∀ ops ∈ ([hostOps1] : List (List (HloOp τ sig (Elt F)))), ∀ op ∈ ops, op.fresh = ∅ := by
  intro ops hops op hop
  obtain rfl := List.mem_singleton.mp hops
  exact (List.forall_iff_forall_mem.mp tail_fresh) op hop
/-- and each writes only its own result buffer, which is none of the pipeline's five arrays (the two arguments and the
    three results of the region). -/
theorem tail_keeps : ∀ ops ∈ ([hostOps1] : List (List (HloOp τ sig (Elt F)))), ∀ op ∈ ops,
    ∀ w, Proc.devRef .tc (Pipeline.arrRef spec0 w) ∉ op.writes := by
  intro ops hops op hop
  obtain rfl := List.mem_singleton.mp hops
  simp only [hostOps1, List.mem_cons, List.mem_nil_iff, or_false] at hop
  rcases hop with rfl | rfl | rfl | rfl | rfl
  all_goals intro w; fin_cases w <;> simp only [StableHlo.unary_writes, StableHlo.nary_writes, StableHlo.reshape_writes, Finset.mem_singleton] <;> exact StableHlo.devRef_ne_of_ne (by decide)

/-! ## The staged blocks -/

/-- Window `w`'s block at grid point `t`, read off its array as the region finds it. -/
def blockIn (c : Dev nD) (w : Fin cfg0.W) (t : Fin cfg0.N) : ((cfg0.win w).xblock (cfg0.grid.coords t)).Idx → Elt F (cfg0.win w).elt :=
  ((cfg0.win w).blk t).view.read (Elt F) (arrIn m c (Pipeline.arrRef spec0 w))

/-! ## The body's accesses: row-plane `p` of an argument block and of an output block -/

abbrev xrow0 : Rect S1x8x64x128 := Rect.unit (s := S1x8x64x128) ![0, 0, 0, 0] S1x1x64x128.size inb_S1x8x64x128_S1x1x64x128_0_0_0_0
abbrev orow0 : Rect S1x8x64x64 := Rect.unit (s := S1x8x64x64) ![0, 0, 0, 0] S1x1x64x64.size inb_S1x8x64x64_S1x1x64x64_0_0_0_0
abbrev xrow1 : Rect S1x8x64x128 := Rect.unit (s := S1x8x64x128) ![0, 1, 0, 0] S1x1x64x128.size inb_S1x8x64x128_S1x1x64x128_0_1_0_0
abbrev orow1 : Rect S1x8x64x64 := Rect.unit (s := S1x8x64x64) ![0, 1, 0, 0] S1x1x64x64.size inb_S1x8x64x64_S1x1x64x64_0_1_0_0
abbrev xrow2 : Rect S1x8x64x128 := Rect.unit (s := S1x8x64x128) ![0, 2, 0, 0] S1x1x64x128.size inb_S1x8x64x128_S1x1x64x128_0_2_0_0
abbrev orow2 : Rect S1x8x64x64 := Rect.unit (s := S1x8x64x64) ![0, 2, 0, 0] S1x1x64x64.size inb_S1x8x64x64_S1x1x64x64_0_2_0_0
abbrev xrow3 : Rect S1x8x64x128 := Rect.unit (s := S1x8x64x128) ![0, 3, 0, 0] S1x1x64x128.size inb_S1x8x64x128_S1x1x64x128_0_3_0_0
abbrev orow3 : Rect S1x8x64x64 := Rect.unit (s := S1x8x64x64) ![0, 3, 0, 0] S1x1x64x64.size inb_S1x8x64x64_S1x1x64x64_0_3_0_0
abbrev xrow4 : Rect S1x8x64x128 := Rect.unit (s := S1x8x64x128) ![0, 4, 0, 0] S1x1x64x128.size inb_S1x8x64x128_S1x1x64x128_0_4_0_0
abbrev orow4 : Rect S1x8x64x64 := Rect.unit (s := S1x8x64x64) ![0, 4, 0, 0] S1x1x64x64.size inb_S1x8x64x64_S1x1x64x64_0_4_0_0
abbrev xrow5 : Rect S1x8x64x128 := Rect.unit (s := S1x8x64x128) ![0, 5, 0, 0] S1x1x64x128.size inb_S1x8x64x128_S1x1x64x128_0_5_0_0
abbrev orow5 : Rect S1x8x64x64 := Rect.unit (s := S1x8x64x64) ![0, 5, 0, 0] S1x1x64x64.size inb_S1x8x64x64_S1x1x64x64_0_5_0_0
abbrev xrow6 : Rect S1x8x64x128 := Rect.unit (s := S1x8x64x128) ![0, 6, 0, 0] S1x1x64x128.size inb_S1x8x64x128_S1x1x64x128_0_6_0_0
abbrev orow6 : Rect S1x8x64x64 := Rect.unit (s := S1x8x64x64) ![0, 6, 0, 0] S1x1x64x64.size inb_S1x8x64x64_S1x1x64x64_0_6_0_0
abbrev xrow7 : Rect S1x8x64x128 := Rect.unit (s := S1x8x64x128) ![0, 7, 0, 0] S1x1x64x128.size inb_S1x8x64x128_S1x1x64x128_0_7_0_0
abbrev orow7 : Rect S1x8x64x64 := Rect.unit (s := S1x8x64x64) ![0, 7, 0, 0] S1x1x64x64.size inb_S1x8x64x64_S1x1x64x64_0_7_0_0

/-! ## What the body leaves in the three output blocks

Each is the overlay of eight pieces, one per matrix index `p`, the last store first: at row-plane `p` the
body's value for the `p`-th pair of matrices. -/

/-- The block of normalised inner products: at plane `p`, entry `(n, k)` is the sum over the 128 columns of the products of row
    `n` of `x` and row `k` of `y`, each row first divided by the larger of its Euclidean norm and a fixed small constant. -/
def cosOut (x y : Vec F S1x8x64x128 .f32) : Vec F S1x8x64x64 .f32 :=
  View.canon [
    ⟨orow7, k0_pay2 (k0_pay63 (View.ld x xrow7)) (k0_pay64 (View.ld y xrow7)) (constant S64x64 .f32 0x00000000#32)⟩,
    ⟨orow6, k0_pay58 (k0_pay54 (View.ld x xrow6) (View.ld y xrow6))⟩,
    ⟨orow5, k0_pay49 (View.ld x xrow5) (View.ld y xrow5)⟩,
    ⟨orow4, k0_pay41 (k0_pay38 (View.ld x xrow4)) (View.ld y xrow4)⟩,
    ⟨orow3, k0_pay35 (k0_pay30 (View.ld x xrow3)) (k0_pay31 (View.ld y xrow3)) (k0_pay32 (View.ld x xrow3)) (k0_pay33 (View.ld y xrow3)) (Scalar.ofBits .f32 0x2B8CBCCC#32)⟩,
    ⟨orow2, k0_pay27 (k0_pay24 (View.ld x xrow2)) (k0_pay25 (View.ld y xrow2)) (constant S64x64 .f32 0x00000000#32)⟩,
    ⟨orow1, k0_pay19 (k0_pay15 (View.ld x xrow1) (View.ld y xrow1))⟩,
    ⟨orow0, k0_pay10 (View.ld x xrow0) (View.ld y xrow0)⟩]

/-- The block of Euclidean distances: at plane `p`, entry `(n, k)` is the square root of the sum over the columns of the squared
    differences between row `n` of `x` and row `k` of `y`. -/
def l2Out (x y : Vec F S1x8x64x128 .f32) : Vec F S1x8x64x64 .f32 :=
  View.canon [
    ⟨orow7, k0_pay3 (k0_pay61 (View.ld x xrow7)) (k0_pay62 (View.ld y xrow7))⟩,
    ⟨orow6, k0_pay59 (k0_pay56 (View.ld x xrow6) (View.ld y xrow6))⟩,
    ⟨orow5, k0_pay50 (k0_pay47 (View.ld x xrow5) (View.ld y xrow5))⟩,
    ⟨orow4, k0_pay42 (k0_pay38 (View.ld x xrow4)) (View.ld y xrow4)⟩,
    ⟨orow3, k0_pay36 (k0_pay30 (View.ld x xrow3)) (k0_pay31 (View.ld y xrow3))⟩,
    ⟨orow2, k0_pay28 (k0_pay22 (View.ld x xrow2)) (k0_pay23 (View.ld y xrow2))⟩,
    ⟨orow1, k0_pay20 (k0_pay17 (View.ld x xrow1) (View.ld y xrow1))⟩,
    ⟨orow0, k0_pay11 (k0_pay8 (View.ld x xrow0) (View.ld y xrow0))⟩]

/-- The block of absolute-difference sums: at plane `p`, entry `(n, k)` is the sum over the columns of the absolute differences
    between row `n` of `x` and row `k` of `y`. -/
def l1Out (x y : Vec F S1x8x64x128 .f32) : Vec F S1x8x64x64 .f32 :=
  View.canon [
    ⟨orow7, k0_pay4 (k0_pay61 (View.ld x xrow7)) (k0_pay62 (View.ld y xrow7))⟩,
    ⟨orow6, k0_pay60 (k0_pay57 (View.ld x xrow6) (View.ld y xrow6))⟩,
    ⟨orow5, k0_pay51 (k0_pay48 (View.ld x xrow5) (View.ld y xrow5))⟩,
    ⟨orow4, k0_pay43 (k0_pay38 (View.ld x xrow4)) (View.ld y xrow4)⟩,
    ⟨orow3, k0_pay37 (k0_pay30 (View.ld x xrow3)) (k0_pay31 (View.ld y xrow3))⟩,
    ⟨orow2, k0_pay29 (k0_pay22 (View.ld x xrow2)) (k0_pay23 (View.ld y xrow2))⟩,
    ⟨orow1, k0_pay21 (k0_pay18 (View.ld x xrow1) (View.ld y xrow1))⟩,
    ⟨orow0, k0_pay12 (k0_pay9 (View.ld x xrow0) (View.ld y xrow0))⟩]

/-- Eight row-planes tile an output block, so eight stores at them cover it, whatever they store. -/
theorem planes_cover (p0 p1 p2 p3 p4 p5 p6 p7 : Vec F S1x1x64x64 .f32) (j : S1x8x64x64.Idx) :
    ∃ pc ∈ ([⟨orow7, p7⟩, ⟨orow6, p6⟩, ⟨orow5, p5⟩, ⟨orow4, p4⟩, ⟨orow3, p3⟩, ⟨orow2, p2⟩, ⟨orow1, p1⟩, ⟨orow0, p0⟩] : List (View.Piece (Elt F) S1x8x64x64 .f32)), j ∈ pc.1.set :=
  View.cover_of_tiled [⟨orow7, p7⟩, ⟨orow6, p6⟩, ⟨orow5, p5⟩, ⟨orow4, p4⟩, ⟨orow3, p3⟩, ⟨orow2, p2⟩, ⟨orow1, p1⟩, ⟨orow0, p0⟩] S1x1x64x64.size (by rfl) j

/-! ## The body's triple -/

set_option maxHeartbeats 4000000 in
/-- On whole staging buffers, the two argument blocks at read contents `x` and `y` and the three output blocks at anything, the
    body runs to its continuation holding the argument blocks as they were and the output blocks at `cosOut x y`,
    `l2Out x y` and `l1Out x y`. -/
theorem body_runs (c : Dev nD) (E : Set ℕ) (i : grid0.Coords)
    (arg1 : Memref sig .tc .vmem S1x8x64x128 .f32) (harg1 : arg1.IsWhole) (arg2 : Memref sig .tc .vmem S1x8x64x128 .f32) (harg2 : arg2.IsWhole)
    (arg3 : Memref sig .tc .vmem S1x8x64x64 .f32) (harg3 : arg3.IsWhole) (arg4 : Memref sig .tc .vmem S1x8x64x64 .f32) (harg4 : arg4.IsWhole)
    (arg5 : Memref sig .tc .vmem S1x8x64x64 .f32) (harg5 : arg5.IsWhole)
    (x y : Vec F S1x8x64x128 .f32) (K : PUnit → sProp 𝕄) :
    iprop(owns (c : Thread nD τ) arg1 fullShare x ∗ owns (c : Thread nD τ) arg2 fullShare y
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x ∗ owns (c : Thread nD τ) arg2 fullShare y
            ∗ owns (c : Thread nD τ) arg3 fullShare (cosOut x y) ∗ owns (c : Thread nD τ) arg4 fullShare (l2Out x y)
            ∗ owns (c : Thread nD τ) arg5 fullShare (l1Out x y)) -∗ K ⟨⟩))
      ⊢ wp frame (wpE (defs₀ (F := F)) Variants.none c none) E (cc0__compare_kernel i arg1 harg1 arg2 harg2 arg3 harg3 arg4 harg4 arg5 harg5) K := by
  simp only [cc0__compare_kernel_eq_skeleton]; unfold cc0__compare_kernel_skel
  unfold owns
  iintro ⟨⟨%f1, %hf1, H1⟩, ⟨%f2, %hf2, H2⟩, ⟨%d3, %f3, -, H3⟩, ⟨%d4, %f4, -, H4⟩, ⟨%d5, %f5, -, H5⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (planes_cover _ _ _ _ _ _ _ _)
  isplitl [H4]
  · iexists _; isplitr
    swap; · iexact H4
    ipureintro
    exact View.read_writes_eq_canon _ _ _ (planes_cover _ _ _ _ _ _ _ _)
  · iexists _; isplitr
    swap; · iexact H5
    ipureintro
    exact View.read_writes_eq_canon _ _ _ (planes_cover _ _ _ _ _ _ _ _)

/-! ## The pipeline's proof data -/

/-- On core `c`: the arrays as the region finds them; after the body at grid point `t` each argument's staging buffer at
    its block and each output's at the body's function of the two argument blocks; the class's invariant (the scoped
    rest and the generator register, untouched); nothing owed; full shares. -/
def dats (_ : Fin 1) (c : Dev nD) : Dat τ (Elt F) Unit ℕ (UR sig nD τ) ℕ cfg0 c where
  A w := arrIn m c (Pipeline.arrRef spec0 w)
  after w t := match w with
    | ⟨0, _⟩ => blockIn m c 0 t
    | ⟨1, _⟩ => blockIn m c 1 t
    | ⟨2, _⟩ => cosOut (blockIn m c 0 t) (blockIn m c 1 t)
    | ⟨3, _⟩ => l2Out (blockIn m c 0 t) (blockIn m c 1 t)
    | ⟨4, _⟩ => l1Out (blockIn m c 0 t) (blockIn m c 1 t)
  Φ _ := Pipeline.ΦA spec0 c
  q _ := fullShare
  owed _ := 0

/-- The proof data's arrays are the region-entry contents. -/
theorem A_eq (c : Dev nD) (w : Fin cfg0.W) : (dats m 0 c).A w = arrIn m c (Pipeline.arrRef spec0 w) := by
  dsimp only [dats]

/-- What the body leaves, window by window. -/
theorem after0 (c : Dev nD) (t : Fin cfg0.N) : (dats m 0 c).after 0 t = blockIn m c 0 t := by dsimp only [dats]
theorem after1 (c : Dev nD) (t : Fin cfg0.N) : (dats m 0 c).after 1 t = blockIn m c 1 t := by dsimp only [dats]
theorem after2 (c : Dev nD) (t : Fin cfg0.N) : (dats m 0 c).after 2 t = cosOut (blockIn m c 0 t) (blockIn m c 1 t) := by dsimp only [dats]
theorem after3 (c : Dev nD) (t : Fin cfg0.N) : (dats m 0 c).after 3 t = l2Out (blockIn m c 0 t) (blockIn m c 1 t) := by dsimp only [dats]
theorem after4 (c : Dev nD) (t : Fin cfg0.N) : (dats m 0 c).after 4 t = l1Out (blockIn m c 0 t) (blockIn m c 1 t) := by dsimp only [dats]

/-- Each argument's current staging buffer holds its block when the body runs, at every grid point: the body leaves the
    block in place, and the window is fetched whole and is never idle. -/
theorem before0 (c : Dev nD) (t : Fin cfg0.N) (d) : (dats m 0 c).before 0 t d = blockIn m c 0 t :=
  ((dats m 0 c).before_in_eq_fetched 0 rfl (fun _ => rfl) (fun _ _ _ => rfl)
      (fun t => by rw [after0]; unfold Dat.blockOf blockIn; rw [A_eq]; try rfl) t d).trans
    (by unfold Dat.fetched Dat.blockOf blockIn; rw [A_eq]; try rfl)
theorem before1 (c : Dev nD) (t : Fin cfg0.N) (d) : (dats m 0 c).before 1 t d = blockIn m c 1 t :=
  ((dats m 0 c).before_in_eq_fetched 1 rfl (fun _ => rfl) (fun _ _ _ => rfl)
      (fun t => by rw [after1]; unfold Dat.blockOf blockIn; rw [A_eq]; try rfl) t d).trans
    (by unfold Dat.fetched Dat.blockOf blockIn; rw [A_eq]; try rfl)

/-! ## The body obligation -/

/-- What the body is called with at grid point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any grid point: the argument buffers hold their blocks, so the body's triple applies; the invariant and
    what the core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (body_runs c Set.univ (grid0.coords t) _ _ _ _ _ _ _ _ _ _ (blockIn m c 0 t) (blockIn m c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every grid point. -/
theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- From any memory with zero counters every weakly fair execution of @main on the TensorCores terminates, and in every
    final state each array of the pipeline holds what the write-backs of all sixteen grid points leave and every other
    unscoped buffer what the host lines compute from those arrays. -/
theorem run_main : θ_run defs (onTc (τ := τ) (main (F := F))) (s₀ m ρ)
    (Pipeline.FramePost cfgs (dats m) 0 (Pipeline.afterTail₀ cfgs (dats m) 0 (atEntry m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := atEntry m) (opss := [hostOps1]) (hsub := tail_sub) (hfresh := tail_fresh') (hkeep := tail_keeps)
    (hmain := main_reduces m) (hA := A_eq m) (hΦ := fun _ _ => rfl)

/-- The two argument arrays end as they were launched: each is an array of the pipeline that no grid point writes back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (arrIn_eq m c main_arg0))),
     ((h c).1 1).trans (((dats m 0 c).arrAt_in 1 rfl _).trans ((A_eq m c 1).trans (arrIn_eq m c main_arg1)))⟩) (run_main m ρ)

end Cert.KernelIdeal.Region

end
-- ==== Proof.PairTables.lean ====
/-
  What both programs compute, as functions of the two argument arrays alone.

  Each argument is an array of 16 × 8 matrices of 64 rows and 128 columns. For every pair of matrices `X`, `Y` at the same
  position three 64 × 64 tables are formed, indexed by a row `n` of `X` and a row `k` of `Y`:
  * the inner product of the two rows after each has been divided by the larger of its Euclidean norm and a fixed
    positive constant (the rows' cosine, with the norm clamped from below);
  * the Euclidean distance between the two rows;
  * the sum over the columns of the absolute differences between the two rows.
  All sums run over the 128 columns, in the extended reals. The three tables over all positions are the three planes that
  both programs then lay side by side along a new last axis and reshape.
-/
import Idealize.ShloMosaic.PureOps.Ideal
import Idealize.ShloMosaic.Lib.ValueIdx

noncomputable section

namespace Cert.PairTables

open Idealize.ShloMosaic Idealize.ShloMosaic.ValueIdx

/-- A matrix of 64 rows and 128 columns over the extended reals. -/
abbrev Mat : Type := Fin 64 → Fin 128 → EReal

/-- The constant the norms are clamped below by: the value of the single-precision pattern both programs write. -/
def normFloor : EReal := Ideal.ofBits .f32 0x2B8CBCCC#32

/-- The Euclidean norm of row `n`. -/
def rowNorm (X : Mat) (n : Fin 64) : EReal := Ideal.sqrt (∑ d : Fin 128, X n d * X n d)

/-- Entry `(n, d)` after row `n` is divided by its clamped norm. -/
def unitEntry (X : Mat) (n : Fin 64) (d : Fin 128) : EReal := Ideal.div (X n d) (max (rowNorm X n) normFloor)

/-- The inner product of normalised row `n` of `X` and normalised row `k` of `Y`. -/
def cosEntry (X Y : Mat) (n k : Fin 64) : EReal := ∑ d : Fin 128, unitEntry X n d * unitEntry Y k d

/-- The Euclidean distance between row `n` of `X` and row `k` of `Y`. -/
def l2Entry (X Y : Mat) (n k : Fin 64) : EReal := Ideal.sqrt (∑ d : Fin 128, (X n d - Y k d) * (X n d - Y k d))

/-- The sum of the absolute differences between row `n` of `X` and row `k` of `Y`. -/
def l1Entry (X Y : Mat) (n k : Fin 64) : EReal := ∑ d : Fin 128, max (X n d - Y k d) (-(X n d - Y k d))

/-- The shape of an argument array, -/
abbrev ArgShape : Shape := ⟨4, ![16, 8, 64, 128]⟩
/-- and of one plane of tables. -/
abbrev TableShape : Shape := ⟨4, ![16, 8, 64, 64]⟩

/-- The matrix at position `(s, p)` of an argument array. -/
def matOf (x : ArgShape.Idx → EReal) (s : Fin 16) (p : Fin 8) : Mat := fun n d => x (ix4 s p n d)

/-- The plane of clamped cosines, -/
def cosTable (x y : ArgShape.Idx → EReal) : TableShape.Idx → EReal :=
  fun i => cosEntry (matOf x (i 0) (i 1)) (matOf y (i 0) (i 1)) (i 2) (i 3)
/-- of Euclidean distances, -/
def l2Table (x y : ArgShape.Idx → EReal) : TableShape.Idx → EReal :=
  fun i => l2Entry (matOf x (i 0) (i 1)) (matOf y (i 0) (i 1)) (i 2) (i 3)
/-- and of absolute-difference sums. -/
def l1Table (x y : ArgShape.Idx → EReal) : TableShape.Idx → EReal :=
  fun i => l1Entry (matOf x (i 0) (i 1)) (matOf y (i 0) (i 1)) (i 2) (i 3)

end Cert.PairTables

end
-- ==== Proof.KernelRows.lean ====
/-
  One step of the kernel body, as mathematics: from a pair of loaded row-planes `a`, `b` (each a 64 × 128 matrix carried
  in a [1, 1, 64, 128] vector) the body computes three 64 × 64 matrices, carried as [1, 1, 64, 64] vectors.

  The body is the same computation eight times over; the printed program names its intermediate values differently in each
  repetition, and every one of those names unfolds to the three functions defined here (`cosPlane`, `l2Plane`, `l1Plane`).
  Read at an entry `(n, k)` over the extended reals they are the specification's three entries for the matrices `a` and `b`
  hold: a lane sum is the sum over the 128 columns, the matrix unit's product of the normalised rows against the normalised
  rows into a zero accumulator is the sum over the columns of the products, narrowing to sixteen bits changes nothing, and
  the layout operations (dropping and adding unit axes, repeating a column or a plane) only move coordinates.
-/
import proofs.«102027_j84593675862346_1_alg».proof.Proof.Gen.KernelIdeal.Skeleton
import proofs.«102027_j84593675862346_1_alg».proof.Proof.PairTables
import Idealize.ShloMosaic.PureOps.Ideal.Laws
import Idealize.ShloMosaic.Lib.ValueIdx
import Idealize.ShloMosaic.Lib.Pipeline.Value

noncomputable section

namespace Cert.KernelIdeal.Rows

open Idealize.ShloMosaic Idealize.ShloMosaic.ValueIdx Cert.KernelIdeal Cert.KernelIdeal.Gen Cert.PairTables

/-! ## The three functions of a pair of row-planes, at any float instance -/

section AnyInstance

variable {F : FTy → Type} [FloatOps F]

/-- The row-plane as a 64 × 128 matrix. -/
def flat (a : Vec F S1x1x64x128 .f32) : FVec F S64x128 .f32 := shapeCast S64x128 a shapeCasts_S1x1x64x128_S64x128

/-- Each row's Euclidean norm, as a column. -/
def rowNorms (a : Vec F S1x1x64x128 .f32) : FVec F S64x1 .f32 :=
  sqrt (shapeCast S64x1 (multiReduction .add [1] S64 (mulf (flat a) (flat a)) 0x00000000#32 reduces_S64x128_S64 (.inl rfl) rfl) shapeCasts_S64_S64x1)

/-- Each row divided by the larger of its norm and the fixed constant. -/
def unitRows (a : Vec F S1x1x64x128 .f32) : FVec F S64x128 .f32 :=
  divf (flat a) (broadcastTo S64x128 (maximumf (rowNorms a) (broadcast S64x1 (Scalar.ofBits .f32 0x2B8CBCCC#32))) broadcasts_S64x1_S64x128)

/-- The products of the normalised rows of `a` against the normalised rows of `b`, on the matrix unit from zero. -/
def cosPlane (a b : Vec F S1x1x64x128 .f32) : FVec F S1x1x64x64 .f32 :=
  shapeCast S1x1x64x64
    (matmul dot_S64x128_S64x128_S64x64_1_1_0_0_n_n none (truncf .bf16 (unitRows a) bitsLt_bf16_f32) (truncf .bf16 (unitRows b) bitsLt_bf16_f32)
      (constant S64x64 .f32 0x00000000#32))
    shapeCasts_S64x64_S1x1x64x64

/-- Every row of `a` minus every row of `b`, column by column. -/
def rowDiffs (a b : Vec F S1x1x64x128 .f32) : FVec F S64x64x128 .f32 :=
  subf (broadcastTo S64x64x128 (shapeCast S64x1x128 (flat a) shapeCasts_S64x128_S64x1x128) broadcasts_S64x1x128_S64x64x128)
    (broadcastTo S64x64x128 (shapeCast S1x64x128 (flat b) shapeCasts_S64x128_S1x64x128) broadcasts_S1x64x128_S64x64x128)

/-- The square roots of the column sums of the squared differences. -/
def l2Plane (a b : Vec F S1x1x64x128 .f32) : FVec F S1x1x64x64 .f32 :=
  shapeCast S1x1x64x64
    (sqrt (multiReduction .add [2] S64x64 (mulf (rowDiffs a b) (rowDiffs a b)) 0x00000000#32 reduces_S64x64x128_S64x64 (.inl rfl) rfl))
    shapeCasts_S64x64_S1x1x64x64

/-- The column sums of the absolute differences. -/
def l1Plane (a b : Vec F S1x1x64x128 .f32) : FVec F S1x1x64x64 .f32 :=
  shapeCast S1x1x64x64
    (multiReduction .add [2] S64x64 (absf (rowDiffs a b)) 0x00000000#32 reduces_S64x64x128_S64x64 (.inl rfl) rfl)
    shapeCasts_S64x64_S1x1x64x64

/-! ### The body's eight repetitions are these functions

Each stored value of the printed body, written through the names the skeleton gives its intermediate values, unfolds to
one of the three functions above applied to the repetition's two loaded row-planes. -/

theorem cos_plane0 (a b : Vec F S1x1x64x128 .f32) : k0_pay10 a b = cosPlane a b := rfl
theorem l2_plane0 (a b : Vec F S1x1x64x128 .f32) : k0_pay11 (k0_pay8 a b) = l2Plane a b := rfl
theorem l1_plane0 (a b : Vec F S1x1x64x128 .f32) : k0_pay12 (k0_pay9 a b) = l1Plane a b := rfl
theorem cos_plane1 (a b : Vec F S1x1x64x128 .f32) : k0_pay19 (k0_pay15 a b) = cosPlane a b := rfl
theorem l2_plane1 (a b : Vec F S1x1x64x128 .f32) : k0_pay20 (k0_pay17 a b) = l2Plane a b := rfl
theorem l1_plane1 (a b : Vec F S1x1x64x128 .f32) : k0_pay21 (k0_pay18 a b) = l1Plane a b := rfl
theorem cos_plane2 (a b : Vec F S1x1x64x128 .f32) : k0_pay27 (k0_pay24 a) (k0_pay25 b) (constant S64x64 .f32 0x00000000#32) = cosPlane a b := rfl
theorem l2_plane2 (a b : Vec F S1x1x64x128 .f32) : k0_pay28 (k0_pay22 a) (k0_pay23 b) = l2Plane a b := rfl
theorem l1_plane2 (a b : Vec F S1x1x64x128 .f32) : k0_pay29 (k0_pay22 a) (k0_pay23 b) = l1Plane a b := rfl
theorem cos_plane3 (a b : Vec F S1x1x64x128 .f32) : k0_pay35 (k0_pay30 a) (k0_pay31 b) (k0_pay32 a) (k0_pay33 b) (Scalar.ofBits .f32 0x2B8CBCCC#32) = cosPlane a b := rfl
theorem l2_plane3 (a b : Vec F S1x1x64x128 .f32) : k0_pay36 (k0_pay30 a) (k0_pay31 b) = l2Plane a b := rfl
theorem l1_plane3 (a b : Vec F S1x1x64x128 .f32) : k0_pay37 (k0_pay30 a) (k0_pay31 b) = l1Plane a b := rfl
theorem cos_plane4 (a b : Vec F S1x1x64x128 .f32) : k0_pay41 (k0_pay38 a) b = cosPlane a b := rfl
theorem l2_plane4 (a b : Vec F S1x1x64x128 .f32) : k0_pay42 (k0_pay38 a) b = l2Plane a b := rfl
theorem l1_plane4 (a b : Vec F S1x1x64x128 .f32) : k0_pay43 (k0_pay38 a) b = l1Plane a b := rfl
theorem cos_plane5 (a b : Vec F S1x1x64x128 .f32) : k0_pay49 a b = cosPlane a b := rfl
theorem l2_plane5 (a b : Vec F S1x1x64x128 .f32) : k0_pay50 (k0_pay47 a b) = l2Plane a b := rfl
theorem l1_plane5 (a b : Vec F S1x1x64x128 .f32) : k0_pay51 (k0_pay48 a b) = l1Plane a b := rfl
theorem cos_plane6 (a b : Vec F S1x1x64x128 .f32) : k0_pay58 (k0_pay54 a b) = cosPlane a b := rfl
theorem l2_plane6 (a b : Vec F S1x1x64x128 .f32) : k0_pay59 (k0_pay56 a b) = l2Plane a b := rfl
theorem l1_plane6 (a b : Vec F S1x1x64x128 .f32) : k0_pay60 (k0_pay57 a b) = l1Plane a b := rfl
theorem cos_plane7 (a b : Vec F S1x1x64x128 .f32) : k0_pay2 (k0_pay63 a) (k0_pay64 b) (constant S64x64 .f32 0x00000000#32) = cosPlane a b := rfl
theorem l2_plane7 (a b : Vec F S1x1x64x128 .f32) : k0_pay3 (k0_pay61 a) (k0_pay62 b) = l2Plane a b := rfl
theorem l1_plane7 (a b : Vec F S1x1x64x128 .f32) : k0_pay4 (k0_pay61 a) (k0_pay62 b) = l1Plane a b := rfl

end AnyInstance

/-! ## Read at an entry, over the extended reals -/

section AtIdeal

/-- The matrix a row-plane carries. -/
def rowMat (a : Vec Ideal S1x1x64x128 .f32) : Mat := fun n d => a (ix4 0 0 n d)

/-! ### The layout operations move coordinates only -/

/-- Dropping the two leading unit axes of a row-plane. -/
theorem flat_apply (a : Vec Ideal S1x1x64x128 .f32) (n : Fin 64) (d : Fin 128) : flat a (ix2 n d) = rowMat a n d :=
  shapeCast_apply a shapeCasts_S1x1x64x128_S64x128 (ix2 n d) (ix4 0 0 n d) (by
    rewrite [Shape.rowMajor_val_four, Shape.rowMajor_val_two]
    show ((0 * 1 + 0) * 64 + n.val) * 128 + d.val = n.val * 128 + d.val
    omega)

/-- A vector of 64 entries stood up as a column. -/
theorem column_apply (v : FVec Ideal S64 .f32) (n : Fin 64) :
    (shapeCast S64x1 v shapeCasts_S64_S64x1 : FVec Ideal S64x1 .f32) (ix2 n 0) = v (ix1 n) :=
  shapeCast_apply v shapeCasts_S64_S64x1 (ix2 n 0) (ix1 n) (by
    rewrite [Shape.rowMajor_val_one, Shape.rowMajor_val_two]
    show n.val = n.val * 1 + 0
    omega)

/-- A column repeated across the 128 columns. -/
theorem acrossColumns_apply (v : FVec Ideal S64x1 .f32) (n : Fin 64) (d : Fin 128) :
    (broadcastTo S64x128 v broadcasts_S64x1_S64x128 : FVec Ideal S64x128 .f32) (ix2 n d) = v (ix2 n 0) :=
  broadcastTo_apply v broadcasts_S64x1_S64x128 (ix2 n d) (ix2 n 0) (fun x => match x with
    | ⟨0, _⟩ => by show n.val = if (64 : Nat) = 1 then 0 else n.val; rw [if_neg (by decide)]
    | ⟨1, _⟩ => by show 0 = if (1 : Nat) = 1 then 0 else d.val; rw [if_pos rfl])

/-- A 64 × 128 matrix given a unit middle axis (its rows, each to be repeated against every row of the other matrix), -/
theorem rowsApart_apply (v : FVec Ideal S64x128 .f32) (n : Fin 64) (d : Fin 128) :
    (shapeCast S64x1x128 v shapeCasts_S64x128_S64x1x128 : FVec Ideal S64x1x128 .f32) (ix3 n 0 d) = v (ix2 n d) :=
  shapeCast_apply v shapeCasts_S64x128_S64x1x128 (ix3 n 0 d) (ix2 n d) (by
    rewrite [Shape.rowMajor_val_two, Shape.rowMajor_val_three]
    show n.val * 128 + d.val = (n.val * 1 + 0) * 128 + d.val
    omega)

/-- and one given a unit leading axis (the whole matrix, to be repeated against every row of the other). -/
theorem onePlane_apply (v : FVec Ideal S64x128 .f32) (k : Fin 64) (d : Fin 128) :
    (shapeCast S1x64x128 v shapeCasts_S64x128_S1x64x128 : FVec Ideal S1x64x128 .f32) (ix3 0 k d) = v (ix2 k d) :=
  shapeCast_apply v shapeCasts_S64x128_S1x64x128 (ix3 0 k d) (ix2 k d) (by
    rewrite [Shape.rowMajor_val_two, Shape.rowMajor_val_three]
    show k.val * 128 + d.val = (0 * 64 + k.val) * 128 + d.val
    omega)

/-- Repeating along the unit middle axis, -/
theorem overMiddle_apply (v : FVec Ideal S64x1x128 .f32) (n k : Fin 64) (d : Fin 128) :
    (broadcastTo S64x64x128 v broadcasts_S64x1x128_S64x64x128 : FVec Ideal S64x64x128 .f32) (ix3 n k d) = v (ix3 n 0 d) :=
  broadcastTo_apply v broadcasts_S64x1x128_S64x64x128 (ix3 n k d) (ix3 n 0 d) (fun x => match x with
    | ⟨0, _⟩ => by show n.val = if (64 : Nat) = 1 then 0 else n.val; rw [if_neg (by decide)]
    | ⟨1, _⟩ => by show 0 = if (1 : Nat) = 1 then 0 else k.val; rw [if_pos rfl]
    | ⟨2, _⟩ => by show d.val = if (128 : Nat) = 1 then 0 else d.val; rw [if_neg (by decide)])

/-- and along the unit leading axis. -/
theorem overLeading_apply (v : FVec Ideal S1x64x128 .f32) (n k : Fin 64) (d : Fin 128) :
    (broadcastTo S64x64x128 v broadcasts_S1x64x128_S64x64x128 : FVec Ideal S64x64x128 .f32) (ix3 n k d) = v (ix3 0 k d) :=
  broadcastTo_apply v broadcasts_S1x64x128_S64x64x128 (ix3 n k d) (ix3 0 k d) (fun x => match x with
    | ⟨0, _⟩ => by show 0 = if (1 : Nat) = 1 then 0 else n.val; rw [if_pos rfl]
    | ⟨1, _⟩ => by show k.val = if (64 : Nat) = 1 then 0 else k.val; rw [if_neg (by decide)]
    | ⟨2, _⟩ => by show d.val = if (128 : Nat) = 1 then 0 else d.val; rw [if_neg (by decide)])

/-- A 64 × 64 matrix given two leading unit axes. -/
theorem asPlane_apply (v : FVec Ideal S64x64 .f32) (n k : Fin 64) :
    (shapeCast S1x1x64x64 v shapeCasts_S64x64_S1x1x64x64 : FVec Ideal S1x1x64x64 .f32) (ix4 0 0 n k) = v (ix2 n k) :=
  shapeCast_apply v shapeCasts_S64x64_S1x1x64x64 (ix4 0 0 n k) (ix2 n k) (by
    rewrite [Shape.rowMajor_val_two, Shape.rowMajor_val_four]
    show n.val * 64 + k.val = ((0 * 1 + 0) * 64 + n.val) * 64 + k.val
    omega)

/-! ### The sums -/

/-- A lane sum along the columns of a 64 × 128 matrix is the sum over the 128 columns. -/
theorem columnSum_apply (v : FVec Ideal S64x128 .f32) (n : Fin 64) :
    (multiReduction .add [1] S64 v 0x00000000#32 reduces_S64x128_S64 (.inl rfl) rfl : FVec Ideal S64 .f32) (ix1 n) = ∑ d : Fin 128, v (ix2 n d) := by
  refine (Ideal.multiReduction_add_single v 0x00000000#32 reduces_S64x128_S64 (.inl rfl) rfl (ix1 n)).trans ?_
  refine Finset.sum_congr rfl fun d _ => ?_
  exact congrArg v (funext fun x => Fin.ext (by match x with | ⟨0, _⟩ => rfl | ⟨1, _⟩ => rfl))

/-- A lane sum along the last axis of a 64 × 64 × 128 array is the sum over its 128 entries. -/
theorem depthSum_apply (v : FVec Ideal S64x64x128 .f32) (n k : Fin 64) :
    (multiReduction .add [2] S64x64 v 0x00000000#32 reduces_S64x64x128_S64x64 (.inl rfl) rfl : FVec Ideal S64x64 .f32) (ix2 n k) = ∑ d : Fin 128, v (ix3 n k d) := by
  refine (Ideal.multiReduction_add_single v 0x00000000#32 reduces_S64x64x128_S64x64 (.inl rfl) rfl (ix2 n k)).trans ?_
  refine Finset.sum_congr rfl fun d _ => ?_
  exact congrArg v (funext fun x => Fin.ext (by match x with | ⟨0, _⟩ => rfl | ⟨1, _⟩ => rfl | ⟨2, _⟩ => rfl))

/-! ### Rows against rows on the matrix unit

The product contracts the column axis of BOTH operands: entry `(n, k)` pairs row `n` of the left operand with row `k` of
the right one. The four facts below say which coordinate of the output index or of the contraction index each operand's
coordinate is. -/

theorem left_row (j : S64x64.Idx) (q : dot_S64x128_S64x128_S64x64_1_1_0_0_n_n.contr.Idx) :
    (dot_S64x128_S64x128_S64x64_1_1_0_0_n_n.lhsIdx j q 0).val = (j 0).val := by
  unfold DotDims.lhsIdx
  rw [dif_neg (show ¬(0 : Fin S64x128.rank) ∈ dot_S64x128_S64x128_S64x64_1_1_0_0_n_n.lhsBatch by decide), dif_pos (show (0 : Fin S64x128.rank) ∈ dot_S64x128_S64x128_S64x64_1_1_0_0_n_n.lhsNonContracting by decide)]
  rfl
theorem left_col (j : S64x64.Idx) (q : dot_S64x128_S64x128_S64x64_1_1_0_0_n_n.contr.Idx) :
    (dot_S64x128_S64x128_S64x64_1_1_0_0_n_n.lhsIdx j q 1).val = (q ⟨0, by decide⟩).val :=
  dot_S64x128_S64x128_S64x64_1_1_0_0_n_n.lhsIdx_val_of_single rfl j q
theorem right_row (j : S64x64.Idx) (q : dot_S64x128_S64x128_S64x64_1_1_0_0_n_n.contr.Idx) :
    (dot_S64x128_S64x128_S64x64_1_1_0_0_n_n.rhsIdx j q 0).val = (j 1).val := by
  unfold DotDims.rhsIdx
  rw [dif_neg (show ¬(0 : Fin S64x128.rank) ∈ dot_S64x128_S64x128_S64x64_1_1_0_0_n_n.rhsBatch by decide), dif_pos (show (0 : Fin S64x128.rank) ∈ dot_S64x128_S64x128_S64x64_1_1_0_0_n_n.rhsNonContracting by decide)]
  rfl
theorem right_col (j : S64x64.Idx) (q : dot_S64x128_S64x128_S64x64_1_1_0_0_n_n.contr.Idx) :
    (dot_S64x128_S64x128_S64x64_1_1_0_0_n_n.rhsIdx j q 1).val = (q ⟨0, by decide⟩).val :=
  dot_S64x128_S64x128_S64x64_1_1_0_0_n_n.rhsIdx_val_of_single rfl j q

/-- Into a zero accumulator, entry `(n, k)` is the sum over the columns of the products of row `n` of the left operand and row `k`
    of the right one. -/
theorem rowsAgainstRows_apply (l r : FVec Ideal S64x128 .bf16) (n k : Fin 64) :
    (matmul dot_S64x128_S64x128_S64x64_1_1_0_0_n_n none l r (constant S64x64 .f32 0x00000000#32) : FVec Ideal S64x64 .f32) (ix2 n k)
      = ∑ d : Fin 128, l (ix2 n d) * r (ix2 k d) := by
  simp only [matmul]
  rw [Ideal.matmul_constant_zero_apply, ← Equiv.sum_comp (ValueIdx.contrEquiv1 dot_S64x128_S64x128_S64x64_1_1_0_0_n_n 128 rfl rfl).symm]
  refine Finset.sum_congr rfl fun d _ => ?_
  have hd := ValueIdx.contrEquiv1_symm_val dot_S64x128_S64x128_S64x64_1_1_0_0_n_n 128 rfl rfl d
  have el : dot_S64x128_S64x128_S64x64_1_1_0_0_n_n.lhsIdx (ix2 n k) ((ValueIdx.contrEquiv1 dot_S64x128_S64x128_S64x64_1_1_0_0_n_n 128 rfl rfl).symm d) = ix2 n d := funext fun x => Fin.ext (by
    match x with
    | ⟨0, _⟩ => exact left_row _ _
    | ⟨1, _⟩ => exact (left_col _ _).trans hd)
  have er : dot_S64x128_S64x128_S64x64_1_1_0_0_n_n.rhsIdx (ix2 n k) ((ValueIdx.contrEquiv1 dot_S64x128_S64x128_S64x64_1_1_0_0_n_n 128 rfl rfl).symm d) = ix2 k d := funext fun x => Fin.ext (by
    match x with
    | ⟨0, _⟩ => exact right_row _ _
    | ⟨1, _⟩ => exact (right_col _ _).trans hd)
  rw [el, er]

/-! ### The three planes at an entry -/

/-- The column of norms holds each row's Euclidean norm. -/
theorem rowNorms_apply (a : Vec Ideal S1x1x64x128 .f32) (n : Fin 64) : rowNorms a (ix2 n 0) = rowNorm (rowMat a) n := by
  unfold rowNorms rowNorm
  show Ideal.sqrt ((shapeCast S64x1 _ shapeCasts_S64_S64x1 : FVec Ideal S64x1 .f32) (ix2 n 0)) = _
  rw [column_apply, columnSum_apply]
  refine congrArg Ideal.sqrt (Finset.sum_congr rfl fun d _ => ?_)
  show flat a (ix2 n d) * flat a (ix2 n d) = _
  rw [flat_apply]

/-- A normalised row's entry. -/
theorem unitRows_apply (a : Vec Ideal S1x1x64x128 .f32) (n : Fin 64) (d : Fin 128) : unitRows a (ix2 n d) = unitEntry (rowMat a) n d := by
  unfold unitRows unitEntry
  show Ideal.div (flat a (ix2 n d)) ((broadcastTo S64x128 _ broadcasts_S64x1_S64x128 : FVec Ideal S64x128 .f32) (ix2 n d)) = _
  rw [acrossColumns_apply, flat_apply]
  show Ideal.div _ (max (rowNorms a (ix2 n 0)) (Ideal.ofBits .f32 0x2B8CBCCC#32)) = _
  rw [rowNorms_apply]
  rfl

/-- The first plane holds the specification's clamped cosines of the two matrices' rows. -/
theorem cosPlane_apply (a b : Vec Ideal S1x1x64x128 .f32) (n k : Fin 64) :
    cosPlane a b (ix4 0 0 n k) = cosEntry (rowMat a) (rowMat b) n k := by
  unfold cosPlane cosEntry
  rw [asPlane_apply, rowsAgainstRows_apply]
  refine Finset.sum_congr rfl fun d _ => ?_
  show unitRows a (ix2 n d) * unitRows b (ix2 k d) = _
  rw [unitRows_apply, unitRows_apply]

/-- A difference of rows, column by column. -/
theorem rowDiffs_apply (a b : Vec Ideal S1x1x64x128 .f32) (n k : Fin 64) (d : Fin 128) :
    rowDiffs a b (ix3 n k d) = rowMat a n d - rowMat b k d := by
  unfold rowDiffs
  show (broadcastTo S64x64x128 _ broadcasts_S64x1x128_S64x64x128 : FVec Ideal S64x64x128 .f32) (ix3 n k d)
      - (broadcastTo S64x64x128 _ broadcasts_S1x64x128_S64x64x128 : FVec Ideal S64x64x128 .f32) (ix3 n k d) = _
  rw [overMiddle_apply, overLeading_apply, rowsApart_apply, onePlane_apply, flat_apply, flat_apply]

/-- The second plane holds the Euclidean distances between the two matrices' rows. -/
theorem l2Plane_apply (a b : Vec Ideal S1x1x64x128 .f32) (n k : Fin 64) :
    l2Plane a b (ix4 0 0 n k) = l2Entry (rowMat a) (rowMat b) n k := by
  unfold l2Plane l2Entry
  rw [asPlane_apply]
  show Ideal.sqrt ((multiReduction .add [2] S64x64 _ 0x00000000#32 reduces_S64x64x128_S64x64 (.inl rfl) rfl : FVec Ideal S64x64 .f32) (ix2 n k)) = _
  rw [depthSum_apply]
  refine congrArg Ideal.sqrt (Finset.sum_congr rfl fun d _ => ?_)
  show rowDiffs a b (ix3 n k d) * rowDiffs a b (ix3 n k d) = _
  rw [rowDiffs_apply]

/-- The third plane holds the sums of absolute differences between the two matrices' rows. -/
theorem l1Plane_apply (a b : Vec Ideal S1x1x64x128 .f32) (n k : Fin 64) :
    l1Plane a b (ix4 0 0 n k) = l1Entry (rowMat a) (rowMat b) n k := by
  unfold l1Plane l1Entry
  rw [asPlane_apply, depthSum_apply]
  refine Finset.sum_congr rfl fun d _ => ?_
  show max (rowDiffs a b (ix3 n k d)) (-(rowDiffs a b (ix3 n k d))) = _
  rw [rowDiffs_apply]

end AtIdeal

end Cert.KernelIdeal.Rows

end
-- ==== Proof.KernelTables.lean ====
/-
  The idealized kernel's three result arrays are the specification's tables, and its result is their stack.

  Block by block: the body's eight stored planes of an output block are, each on its rectangle, one function of the two staged
  argument blocks — at plane `p`, entry `(n, k)`, the specification's entry for the `p`-th matrices of the two blocks — and the
  eight rectangles cover the block. Grid point `s` stages block `s` of each argument, whose `p`-th matrix is the matrix at
  position `(s, p)` of the argument, and writes the three output blocks back at block `s` of the three result arrays; the
  sixteen blocks cover each array, so after the last grid point the arrays hold the three tables of the whole arguments.
  The five host lines then give each table a trailing unit axis, join the three along it and reshape: the program's result.
-/
import proofs.«102027_j84593675862346_1_alg».proof.Proof.KernelIdealRegion
import proofs.«102027_j84593675862346_1_alg».proof.Proof.KernelRows
import proofs.«102027_j84593675862346_1_alg».proof.Proof.PairTables
import Idealize.ShloMosaic.Lib.StableHlo.Run
import Idealize.ShloMosaic.Lib.Pipeline.Value
import Idealize.ShloMosaic.PureOps.Ideal

set_option maxRecDepth 16384

noncomputable section

namespace Cert.KernelIdeal.Tables

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.KernelIdeal.Region Cert.KernelIdeal.Rows Cert.PairTables

/-! ## One output block from the two staged argument blocks -/

/-- The `p`-th matrix of a staged argument block. -/
def planeMat (X : Vec Ideal S1x8x64x128 .f32) (p : Fin 8) : Mat := fun n d => X (ix4 0 p n d)

/-- A block of 64 × 64 tables, one per matrix index, from an entry function of two matrices. -/
def blockOf (E : Mat → Mat → Fin 64 → Fin 64 → EReal) (X Y : Vec Ideal S1x8x64x128 .f32) : S1x8x64x64.Idx → EReal :=
  fun j => E (planeMat X (j 1)) (planeMat Y (j 1)) (j 2) (j 3)

/-- The same over whole argument arrays: the specification's three tables are its instances. -/
def tableOf (E : Mat → Mat → Fin 64 → Fin 64 → EReal) (x y : ArgShape.Idx → EReal) : TableShape.Idx → EReal :=
  fun i => E (matOf x (i 0) (i 1)) (matOf y (i 0) (i 1)) (i 2) (i 3)

/-- Row-plane `p` of a staged block, loaded, carries the block's `p`-th matrix. -/
theorem rowMat_ld (X : Vec Ideal S1x8x64x128 .f32) (p : Nat) (hp : p < 8)
    (inb : ∀ a, (![0, p, 0, 0] : Fin 4 → Nat) a + S1x1x64x128.size a ≤ S1x8x64x128.size a) :
    rowMat (View.ld X (Rect.unit (s := S1x8x64x128) ![0, p, 0, 0] S1x1x64x128.size inb)) = planeMat X ⟨p, hp⟩ := by
  funext n d
  show X ((Rect.unit (s := S1x8x64x128) ![0, p, 0, 0] S1x1x64x128.size inb).idx (ix4 0 0 n d)) = X (ix4 0 ⟨p, hp⟩ n d)
  refine congrArg X (funext fun a => Fin.ext ?_)
  match a with
  | ⟨0, _⟩ => show 0 + 1 * 0 = 0; rfl
  | ⟨1, _⟩ => show p + 1 * 0 = p; omega
  | ⟨2, _⟩ => show 0 + 1 * n.val = n.val; omega
  | ⟨3, _⟩ => show 0 + 1 * d.val = d.val; omega

/-- Row-plane `p` of an output block places local entry `(n, k)` at `(p, n, k)`. -/
theorem plane_emb (p : Nat) (hp : p < 8)
    (inb : ∀ a, (![0, p, 0, 0] : Fin 4 → Nat) a + S1x1x64x64.size a ≤ S1x8x64x64.size a) (n k : Fin 64) :
    (Rect.unit (s := S1x8x64x64) ![0, p, 0, 0] S1x1x64x64.size inb).emb (ix4 0 0 n k) = ix4 0 ⟨p, hp⟩ n k :=
  funext fun a => Fin.ext (by
    match a with
    | ⟨0, _⟩ => show 0 + 1 * 0 = 0; rfl
    | ⟨1, _⟩ => show p + 1 * 0 = p; omega
    | ⟨2, _⟩ => show 0 + 1 * n.val = n.val; omega
    | ⟨3, _⟩ => show 0 + 1 * k.val = k.val; omega)

/-- A stored cos plane, read at a local index, is the block function at the index the plane's rectangle places it at. -/
theorem cos_piece (X Y : Vec Ideal S1x8x64x128 .f32) (p : Nat) (hp : p < 8)
    (inbx : ∀ a, (![0, p, 0, 0] : Fin 4 → Nat) a + S1x1x64x128.size a ≤ S1x8x64x128.size a)
    (inbo : ∀ a, (![0, p, 0, 0] : Fin 4 → Nat) a + S1x1x64x64.size a ≤ S1x8x64x64.size a)
    (x : (Rect.unit (s := S1x8x64x64) ![0, p, 0, 0] S1x1x64x64.size inbo).shape.Idx) :
    cosPlane (View.ld X (Rect.unit (s := S1x8x64x128) ![0, p, 0, 0] S1x1x64x128.size inbx))
        (View.ld Y (Rect.unit (s := S1x8x64x128) ![0, p, 0, 0] S1x1x64x128.size inbx)) x
      = blockOf cosEntry X Y ((Rect.unit (s := S1x8x64x64) ![0, p, 0, 0] S1x1x64x64.size inbo).emb x) := by
  obtain ⟨u, v, n, k, rfl⟩ : ∃ (u v : Fin 1) (n k : Fin 64), x = ix4 u v n k := ⟨x 0, x 1, x 2, x 3, eq_ix4 x⟩
  obtain rfl : u = 0 := Subsingleton.elim _ _
  obtain rfl : v = 0 := Subsingleton.elim _ _
  rw [cosPlane_apply, rowMat_ld X p hp, rowMat_ld Y p hp, plane_emb p hp inbo n k]
  rfl

/-- A stored l2 plane, read at a local index, is the block function at the index the plane's rectangle places it at. -/
theorem l2_piece (X Y : Vec Ideal S1x8x64x128 .f32) (p : Nat) (hp : p < 8)
    (inbx : ∀ a, (![0, p, 0, 0] : Fin 4 → Nat) a + S1x1x64x128.size a ≤ S1x8x64x128.size a)
    (inbo : ∀ a, (![0, p, 0, 0] : Fin 4 → Nat) a + S1x1x64x64.size a ≤ S1x8x64x64.size a)
    (x : (Rect.unit (s := S1x8x64x64) ![0, p, 0, 0] S1x1x64x64.size inbo).shape.Idx) :
    l2Plane (View.ld X (Rect.unit (s := S1x8x64x128) ![0, p, 0, 0] S1x1x64x128.size inbx))
        (View.ld Y (Rect.unit (s := S1x8x64x128) ![0, p, 0, 0] S1x1x64x128.size inbx)) x
      = blockOf l2Entry X Y ((Rect.unit (s := S1x8x64x64) ![0, p, 0, 0] S1x1x64x64.size inbo).emb x) := by
  obtain ⟨u, v, n, k, rfl⟩ : ∃ (u v : Fin 1) (n k : Fin 64), x = ix4 u v n k := ⟨x 0, x 1, x 2, x 3, eq_ix4 x⟩
  obtain rfl : u = 0 := Subsingleton.elim _ _
  obtain rfl : v = 0 := Subsingleton.elim _ _
  rw [l2Plane_apply, rowMat_ld X p hp, rowMat_ld Y p hp, plane_emb p hp inbo n k]
  rfl

/-- A stored l1 plane, read at a local index, is the block function at the index the plane's rectangle places it at. -/
theorem l1_piece (X Y : Vec Ideal S1x8x64x128 .f32) (p : Nat) (hp : p < 8)
    (inbx : ∀ a, (![0, p, 0, 0] : Fin 4 → Nat) a + S1x1x64x128.size a ≤ S1x8x64x128.size a)
    (inbo : ∀ a, (![0, p, 0, 0] : Fin 4 → Nat) a + S1x1x64x64.size a ≤ S1x8x64x64.size a)
    (x : (Rect.unit (s := S1x8x64x64) ![0, p, 0, 0] S1x1x64x64.size inbo).shape.Idx) :
    l1Plane (View.ld X (Rect.unit (s := S1x8x64x128) ![0, p, 0, 0] S1x1x64x128.size inbx))
        (View.ld Y (Rect.unit (s := S1x8x64x128) ![0, p, 0, 0] S1x1x64x128.size inbx)) x
      = blockOf l1Entry X Y ((Rect.unit (s := S1x8x64x64) ![0, p, 0, 0] S1x1x64x64.size inbo).emb x) := by
  obtain ⟨u, v, n, k, rfl⟩ : ∃ (u v : Fin 1) (n k : Fin 64), x = ix4 u v n k := ⟨x 0, x 1, x 2, x 3, eq_ix4 x⟩
  obtain rfl : u = 0 := Subsingleton.elim _ _
  obtain rfl : v = 0 := Subsingleton.elim _ _
  rw [l1Plane_apply, rowMat_ld X p hp, rowMat_ld Y p hp, plane_emb p hp inbo n k]
  rfl

/-- The body's cos block is the block function of the two staged argument blocks: each of its eight stored planes is that
    function on its rectangle, and the eight rectangles cover the block. -/
theorem cosOut_eq (X Y : Vec Ideal S1x8x64x128 .f32) : cosOut X Y = blockOf cosEntry X Y := by
  funext j
  unfold cosOut
  refine View.canon_apply_of_pieces (Val := Elt Ideal) (blockOf cosEntry X Y) _ ?_ j (planes_cover _ _ _ _ _ _ _ _ j)
  intro pc hpc x
  simp only [List.mem_cons, List.mem_nil_iff, or_false] at hpc
  rcases hpc with rfl | rfl | rfl | rfl | rfl | rfl | rfl | rfl
  · exact cos_piece X Y 7 (by decide) inb_S1x8x64x128_S1x1x64x128_0_7_0_0 inb_S1x8x64x64_S1x1x64x64_0_7_0_0 x
  · exact cos_piece X Y 6 (by decide) inb_S1x8x64x128_S1x1x64x128_0_6_0_0 inb_S1x8x64x64_S1x1x64x64_0_6_0_0 x
  · exact cos_piece X Y 5 (by decide) inb_S1x8x64x128_S1x1x64x128_0_5_0_0 inb_S1x8x64x64_S1x1x64x64_0_5_0_0 x
  · exact cos_piece X Y 4 (by decide) inb_S1x8x64x128_S1x1x64x128_0_4_0_0 inb_S1x8x64x64_S1x1x64x64_0_4_0_0 x
  · exact cos_piece X Y 3 (by decide) inb_S1x8x64x128_S1x1x64x128_0_3_0_0 inb_S1x8x64x64_S1x1x64x64_0_3_0_0 x
  · exact cos_piece X Y 2 (by decide) inb_S1x8x64x128_S1x1x64x128_0_2_0_0 inb_S1x8x64x64_S1x1x64x64_0_2_0_0 x
  · exact cos_piece X Y 1 (by decide) inb_S1x8x64x128_S1x1x64x128_0_1_0_0 inb_S1x8x64x64_S1x1x64x64_0_1_0_0 x
  · exact cos_piece X Y 0 (by decide) inb_S1x8x64x128_S1x1x64x128_0_0_0_0 inb_S1x8x64x64_S1x1x64x64_0_0_0_0 x

/-- The body's l2 block is the block function of the two staged argument blocks: each of its eight stored planes is that
    function on its rectangle, and the eight rectangles cover the block. -/
theorem l2Out_eq (X Y : Vec Ideal S1x8x64x128 .f32) : l2Out X Y = blockOf l2Entry X Y := by
  funext j
  unfold l2Out
  refine View.canon_apply_of_pieces (Val := Elt Ideal) (blockOf l2Entry X Y) _ ?_ j (planes_cover _ _ _ _ _ _ _ _ j)
  intro pc hpc x
  simp only [List.mem_cons, List.mem_nil_iff, or_false] at hpc
  rcases hpc with rfl | rfl | rfl | rfl | rfl | rfl | rfl | rfl
  · exact l2_piece X Y 7 (by decide) inb_S1x8x64x128_S1x1x64x128_0_7_0_0 inb_S1x8x64x64_S1x1x64x64_0_7_0_0 x
  · exact l2_piece X Y 6 (by decide) inb_S1x8x64x128_S1x1x64x128_0_6_0_0 inb_S1x8x64x64_S1x1x64x64_0_6_0_0 x
  · exact l2_piece X Y 5 (by decide) inb_S1x8x64x128_S1x1x64x128_0_5_0_0 inb_S1x8x64x64_S1x1x64x64_0_5_0_0 x
  · exact l2_piece X Y 4 (by decide) inb_S1x8x64x128_S1x1x64x128_0_4_0_0 inb_S1x8x64x64_S1x1x64x64_0_4_0_0 x
  · exact l2_piece X Y 3 (by decide) inb_S1x8x64x128_S1x1x64x128_0_3_0_0 inb_S1x8x64x64_S1x1x64x64_0_3_0_0 x
  · exact l2_piece X Y 2 (by decide) inb_S1x8x64x128_S1x1x64x128_0_2_0_0 inb_S1x8x64x64_S1x1x64x64_0_2_0_0 x
  · exact l2_piece X Y 1 (by decide) inb_S1x8x64x128_S1x1x64x128_0_1_0_0 inb_S1x8x64x64_S1x1x64x64_0_1_0_0 x
  · exact l2_piece X Y 0 (by decide) inb_S1x8x64x128_S1x1x64x128_0_0_0_0 inb_S1x8x64x64_S1x1x64x64_0_0_0_0 x

/-- The body's l1 block is the block function of the two staged argument blocks: each of its eight stored planes is that
    function on its rectangle, and the eight rectangles cover the block. -/
theorem l1Out_eq (X Y : Vec Ideal S1x8x64x128 .f32) : l1Out X Y = blockOf l1Entry X Y := by
  funext j
  unfold l1Out
  refine View.canon_apply_of_pieces (Val := Elt Ideal) (blockOf l1Entry X Y) _ ?_ j (planes_cover _ _ _ _ _ _ _ _ j)
  intro pc hpc x
  simp only [List.mem_cons, List.mem_nil_iff, or_false] at hpc
  rcases hpc with rfl | rfl | rfl | rfl | rfl | rfl | rfl | rfl
  · exact l1_piece X Y 7 (by decide) inb_S1x8x64x128_S1x1x64x128_0_7_0_0 inb_S1x8x64x64_S1x1x64x64_0_7_0_0 x
  · exact l1_piece X Y 6 (by decide) inb_S1x8x64x128_S1x1x64x128_0_6_0_0 inb_S1x8x64x64_S1x1x64x64_0_6_0_0 x
  · exact l1_piece X Y 5 (by decide) inb_S1x8x64x128_S1x1x64x128_0_5_0_0 inb_S1x8x64x64_S1x1x64x64_0_5_0_0 x
  · exact l1_piece X Y 4 (by decide) inb_S1x8x64x128_S1x1x64x128_0_4_0_0 inb_S1x8x64x64_S1x1x64x64_0_4_0_0 x
  · exact l1_piece X Y 3 (by decide) inb_S1x8x64x128_S1x1x64x128_0_3_0_0 inb_S1x8x64x64_S1x1x64x64_0_3_0_0 x
  · exact l1_piece X Y 2 (by decide) inb_S1x8x64x128_S1x1x64x128_0_2_0_0 inb_S1x8x64x64_S1x1x64x64_0_2_0_0 x
  · exact l1_piece X Y 1 (by decide) inb_S1x8x64x128_S1x1x64x128_0_1_0_0 inb_S1x8x64x64_S1x1x64x64_0_1_0_0 x
  · exact l1_piece X Y 0 (by decide) inb_S1x8x64x128_S1x1x64x128_0_0_0_0 inb_S1x8x64x64_S1x1x64x64_0_0_0_0 x

/-! ## The three result arrays after the last grid point -/

variable (m : (ℓ : Loc nD τ sig) → Buf (Elt Ideal) ℓ) (ρ : Dev nD → PrngReg)

/-- The two staged argument blocks at grid point `t`. -/
abbrev xblk (c : Dev nD) (t : Fin cfg0.N) : Vec Ideal S1x8x64x128 .f32 := blockIn m c 0 t
abbrev yblk (c : Dev nD) (t : Fin cfg0.N) : Vec Ideal S1x8x64x128 .f32 := blockIn m c 1 t

/-- A grid point as a position along the arguments' leading axis. -/
def lead (t : Fin cfg0.N) : Fin 16 := ⟨t.val, Nat.lt_of_lt_of_eq t.isLt N_0⟩

/-- Every window's block index at grid point `t` is `(t, 0, 0, 0)`: decided over the sixteen grid points. -/
theorem index_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 4) = t.val ∧ win0_2.index t (1 : Fin 4) = 0 ∧ win0_2.index t (2 : Fin 4) = 0 ∧ win0_2.index t (3 : Fin 4) = 0)
    ∧ (win0_3.index t (0 : Fin 4) = t.val ∧ win0_3.index t (1 : Fin 4) = 0 ∧ win0_3.index t (2 : Fin 4) = 0 ∧ win0_3.index t (3 : Fin 4) = 0)
    ∧ (win0_4.index t (0 : Fin 4) = t.val ∧ win0_4.index t (1 : Fin 4) = 0 ∧ win0_4.index t (2 : Fin 4) = 0 ∧ win0_4.index t (3 : Fin 4) = 0) :=
  (by decide +kernel : ∀ t : Fin grid0.N, _)

/-- The `p`-th matrix of the first staged block at grid point `t` is the matrix at `(t, p)` of the first argument, -/
theorem plane_x (c : Dev nD) (t : Fin cfg0.N) (p : Fin 8) :
    planeMat (xblk m c t) p = matOf (arrIn m c main_arg0) (lead t) p := by
  obtain ⟨⟨e0, e1, e2, e3⟩, -⟩ := index_facts t
  funext n d
  show arrIn m c main_arg0 (((cfg0.win 0).blk t).view.emb (ix4 0 p n d)) = arrIn m c main_arg0 (ix4 (lead t) p n d)
  refine congrArg (arrIn m c main_arg0) (funext fun a => Fin.ext ?_)
  match a with
  | ⟨0, _⟩ => show win0_0.index t (0 : Fin 4) * 1 + 1 * 0 = t.val; omega
  | ⟨1, _⟩ => show win0_0.index t (1 : Fin 4) * 8 + 1 * p.val = p.val; omega
  | ⟨2, _⟩ => show win0_0.index t (2 : Fin 4) * 64 + 1 * n.val = n.val; omega
  | ⟨3, _⟩ => show win0_0.index t (3 : Fin 4) * 128 + 1 * d.val = d.val; omega

/-- and likewise for the second. -/
theorem plane_y (c : Dev nD) (t : Fin cfg0.N) (p : Fin 8) :
    planeMat (yblk m c t) p = matOf (arrIn m c main_arg1) (lead t) p := by
  obtain ⟨-, ⟨e0, e1, e2, e3⟩, -⟩ := index_facts t
  funext n d
  show arrIn m c main_arg1 (((cfg0.win 1).blk t).view.emb (ix4 0 p n d)) = arrIn m c main_arg1 (ix4 (lead t) p n d)
  refine congrArg (arrIn m c main_arg1) (funext fun a => Fin.ext ?_)
  match a with
  | ⟨0, _⟩ => show win0_1.index t (0 : Fin 4) * 1 + 1 * 0 = t.val; omega
  | ⟨1, _⟩ => show win0_1.index t (1 : Fin 4) * 8 + 1 * p.val = p.val; omega
  | ⟨2, _⟩ => show win0_1.index t (2 : Fin 4) * 64 + 1 * n.val = n.val; omega
  | ⟨3, _⟩ => show win0_1.index t (3 : Fin 4) * 128 + 1 * d.val = d.val; omega

/-! ### Output window 2: the cos plane -/

/-- What grid point `t` writes back is block `t` of the table over the whole arguments. -/
theorem cos_flushed (c : Dev nD) (t : Fin cfg0.N) :
    (dats m 0 c).flushed 2 t = ((cfg0.win 2).blk t).view.read (Elt Ideal) (tableOf cosEntry (arrIn m c main_arg0) (arrIn m c main_arg1)) := by
  show (cfg0.win 2).cut (grid0.coords t) ((dats m 0 c).after 2 t) = _
  rw [after2, cosOut_eq]
  show (blockOf cosEntry (xblk m c t) (yblk m c t) : S1x8x64x64.Idx → EReal)
      = fun j => tableOf cosEntry (arrIn m c main_arg0) (arrIn m c main_arg1) (((cfg0.win 2).blk t).view.emb j)
  funext j
  obtain ⟨u, p, n, k, rfl⟩ : ∃ (u : Fin 1) (p : Fin 8) (n k : Fin 64), j = ix4 u p n k := ⟨j 0, j 1, j 2, j 3, eq_ix4 j⟩
  obtain rfl : u = 0 := Subsingleton.elim _ _
  obtain ⟨-, -, h2, h3, h4⟩ := index_facts t
  obtain ⟨e0, e1, e2, e3⟩ := h2
  have he : ((cfg0.win 2).blk t).view.emb (ix4 0 p n k) = ix4 (lead t) p n k := funext fun a => Fin.ext (by
    match a with
    | ⟨0, _⟩ => show win0_2.index t (0 : Fin 4) * 1 + 1 * 0 = t.val; omega
    | ⟨1, _⟩ => show win0_2.index t (1 : Fin 4) * 8 + 1 * p.val = p.val; omega
    | ⟨2, _⟩ => show win0_2.index t (2 : Fin 4) * 64 + 1 * n.val = n.val; omega
    | ⟨3, _⟩ => show win0_2.index t (3 : Fin 4) * 64 + 1 * k.val = k.val; omega)
  rw [he]
  show cosEntry (planeMat (xblk m c t) p) (planeMat (yblk m c t) p) n k
      = cosEntry (matOf (arrIn m c main_arg0) (lead t) p) (matOf (arrIn m c main_arg1) (lead t) p) n k
  rw [plane_x, plane_y]

/-- An index of the array is in grid point `t`'s block iff each coordinate is in the block's range on its axis. -/
theorem cos_mem_blk (t : Fin cfg0.N) (i : S16x8x64x64.Idx) :
    i ∈ ((cfg0.win 2).blk t).view.set ↔ ∀ a : Fin 4, win0_2.index t a * S1x8x64x64.size a ≤ (i a).val ∧ (i a).val < win0_2.index t a * S1x8x64x64.size a + S1x8x64x64.size a := by
  show i ∈ ((View.whole main_v0_0).slice (win0_2.rect t)).set ↔ _
  rw [View.set_slice_whole, Rect.mem_set_unit]
  exact Iff.rfl

/-- Every index of the array is in the block of the grid point its leading coordinate names. -/
theorem cos_cover (i : S16x8x64x64.Idx) :
    ∃ t : Fin cfg0.N, (cfg0.win 2).flush t = true ∧ i ∈ ((cfg0.win 2).blk t).view.set := by
  have hi0 : (i 0).val < 16 := (i 0).isLt
  have hi1 : (i 1).val < 8 := (i 1).isLt
  have hi2 : (i 2).val < 64 := (i 2).isLt
  have hi3 : (i 3).val < 64 := (i 3).isLt
  obtain ⟨t, ht⟩ : ∃ t : Fin cfg0.N, t.val = (i 0).val := ⟨⟨(i 0).val, Nat.lt_of_lt_of_eq hi0 N_0.symm⟩, rfl⟩
  obtain ⟨-, -, h2, h3, h4⟩ := index_facts t
  obtain ⟨e0, e1, e2, e3⟩ := h2
  refine ⟨t, flush0_2 t, ?_⟩
  rw [cos_mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 8 ≤ (i 1).val ∧ (i 1).val < win0_2.index t (1 : Fin 4) * 8 + 8; omega
  | ⟨2, _⟩ => show win0_2.index t (2 : Fin 4) * 64 ≤ (i 2).val ∧ (i 2).val < win0_2.index t (2 : Fin 4) * 64 + 64; omega
  | ⟨3, _⟩ => show win0_2.index t (3 : Fin 4) * 64 ≤ (i 3).val ∧ (i 3).val < win0_2.index t (3 : Fin 4) * 64 + 64; omega

/-- After the last grid point the array holds the cos table of the two arguments. -/
theorem cos_final (c : Dev nD) :
    (dats m 0 c).arrAt 2 cfg0.N = cosTable (arrIn m c main_arg0) (arrIn m c main_arg1) :=
  (dats m 0 c).arrAt_eq_of_cover 2 (tableOf cosEntry (arrIn m c main_arg0) (arrIn m c main_arg1)) (fun t _ => cos_flushed m c t) cos_cover

/-! ### Output window 3: the l2 plane -/

/-- What grid point `t` writes back is block `t` of the table over the whole arguments. -/
theorem l2_flushed (c : Dev nD) (t : Fin cfg0.N) :
    (dats m 0 c).flushed 3 t = ((cfg0.win 3).blk t).view.read (Elt Ideal) (tableOf l2Entry (arrIn m c main_arg0) (arrIn m c main_arg1)) := by
  show (cfg0.win 3).cut (grid0.coords t) ((dats m 0 c).after 3 t) = _
  rw [after3, l2Out_eq]
  show (blockOf l2Entry (xblk m c t) (yblk m c t) : S1x8x64x64.Idx → EReal)
      = fun j => tableOf l2Entry (arrIn m c main_arg0) (arrIn m c main_arg1) (((cfg0.win 3).blk t).view.emb j)
  funext j
  obtain ⟨u, p, n, k, rfl⟩ : ∃ (u : Fin 1) (p : Fin 8) (n k : Fin 64), j = ix4 u p n k := ⟨j 0, j 1, j 2, j 3, eq_ix4 j⟩
  obtain rfl : u = 0 := Subsingleton.elim _ _
  obtain ⟨-, -, h2, h3, h4⟩ := index_facts t
  obtain ⟨e0, e1, e2, e3⟩ := h3
  have he : ((cfg0.win 3).blk t).view.emb (ix4 0 p n k) = ix4 (lead t) p n k := funext fun a => Fin.ext (by
    match a with
    | ⟨0, _⟩ => show win0_3.index t (0 : Fin 4) * 1 + 1 * 0 = t.val; omega
    | ⟨1, _⟩ => show win0_3.index t (1 : Fin 4) * 8 + 1 * p.val = p.val; omega
    | ⟨2, _⟩ => show win0_3.index t (2 : Fin 4) * 64 + 1 * n.val = n.val; omega
    | ⟨3, _⟩ => show win0_3.index t (3 : Fin 4) * 64 + 1 * k.val = k.val; omega)
  rw [he]
  show l2Entry (planeMat (xblk m c t) p) (planeMat (yblk m c t) p) n k
      = l2Entry (matOf (arrIn m c main_arg0) (lead t) p) (matOf (arrIn m c main_arg1) (lead t) p) n k
  rw [plane_x, plane_y]

/-- An index of the array is in grid point `t`'s block iff each coordinate is in the block's range on its axis. -/
theorem l2_mem_blk (t : Fin cfg0.N) (i : S16x8x64x64.Idx) :
    i ∈ ((cfg0.win 3).blk t).view.set ↔ ∀ a : Fin 4, win0_3.index t a * S1x8x64x64.size a ≤ (i a).val ∧ (i a).val < win0_3.index t a * S1x8x64x64.size a + S1x8x64x64.size a := by
  show i ∈ ((View.whole main_v0_1).slice (win0_3.rect t)).set ↔ _
  rw [View.set_slice_whole, Rect.mem_set_unit]
  exact Iff.rfl

/-- Every index of the array is in the block of the grid point its leading coordinate names. -/
theorem l2_cover (i : S16x8x64x64.Idx) :
    ∃ t : Fin cfg0.N, (cfg0.win 3).flush t = true ∧ i ∈ ((cfg0.win 3).blk t).view.set := by
  have hi0 : (i 0).val < 16 := (i 0).isLt
  have hi1 : (i 1).val < 8 := (i 1).isLt
  have hi2 : (i 2).val < 64 := (i 2).isLt
  have hi3 : (i 3).val < 64 := (i 3).isLt
  obtain ⟨t, ht⟩ : ∃ t : Fin cfg0.N, t.val = (i 0).val := ⟨⟨(i 0).val, Nat.lt_of_lt_of_eq hi0 N_0.symm⟩, rfl⟩
  obtain ⟨-, -, h2, h3, h4⟩ := index_facts t
  obtain ⟨e0, e1, e2, e3⟩ := h3
  refine ⟨t, flush0_3 t, ?_⟩
  rw [l2_mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 8 ≤ (i 1).val ∧ (i 1).val < win0_3.index t (1 : Fin 4) * 8 + 8; omega
  | ⟨2, _⟩ => show win0_3.index t (2 : Fin 4) * 64 ≤ (i 2).val ∧ (i 2).val < win0_3.index t (2 : Fin 4) * 64 + 64; omega
  | ⟨3, _⟩ => show win0_3.index t (3 : Fin 4) * 64 ≤ (i 3).val ∧ (i 3).val < win0_3.index t (3 : Fin 4) * 64 + 64; omega

/-- After the last grid point the array holds the l2 table of the two arguments. -/
theorem l2_final (c : Dev nD) :
    (dats m 0 c).arrAt 3 cfg0.N = l2Table (arrIn m c main_arg0) (arrIn m c main_arg1) :=
  (dats m 0 c).arrAt_eq_of_cover 3 (tableOf l2Entry (arrIn m c main_arg0) (arrIn m c main_arg1)) (fun t _ => l2_flushed m c t) l2_cover

/-! ### Output window 4: the l1 plane -/

/-- What grid point `t` writes back is block `t` of the table over the whole arguments. -/
theorem l1_flushed (c : Dev nD) (t : Fin cfg0.N) :
    (dats m 0 c).flushed 4 t = ((cfg0.win 4).blk t).view.read (Elt Ideal) (tableOf l1Entry (arrIn m c main_arg0) (arrIn m c main_arg1)) := by
  show (cfg0.win 4).cut (grid0.coords t) ((dats m 0 c).after 4 t) = _
  rw [after4, l1Out_eq]
  show (blockOf l1Entry (xblk m c t) (yblk m c t) : S1x8x64x64.Idx → EReal)
      = fun j => tableOf l1Entry (arrIn m c main_arg0) (arrIn m c main_arg1) (((cfg0.win 4).blk t).view.emb j)
  funext j
  obtain ⟨u, p, n, k, rfl⟩ : ∃ (u : Fin 1) (p : Fin 8) (n k : Fin 64), j = ix4 u p n k := ⟨j 0, j 1, j 2, j 3, eq_ix4 j⟩
  obtain rfl : u = 0 := Subsingleton.elim _ _
  obtain ⟨-, -, h2, h3, h4⟩ := index_facts t
  obtain ⟨e0, e1, e2, e3⟩ := h4
  have he : ((cfg0.win 4).blk t).view.emb (ix4 0 p n k) = ix4 (lead t) p n k := funext fun a => Fin.ext (by
    match a with
    | ⟨0, _⟩ => show win0_4.index t (0 : Fin 4) * 1 + 1 * 0 = t.val; omega
    | ⟨1, _⟩ => show win0_4.index t (1 : Fin 4) * 8 + 1 * p.val = p.val; omega
    | ⟨2, _⟩ => show win0_4.index t (2 : Fin 4) * 64 + 1 * n.val = n.val; omega
    | ⟨3, _⟩ => show win0_4.index t (3 : Fin 4) * 64 + 1 * k.val = k.val; omega)
  rw [he]
  show l1Entry (planeMat (xblk m c t) p) (planeMat (yblk m c t) p) n k
      = l1Entry (matOf (arrIn m c main_arg0) (lead t) p) (matOf (arrIn m c main_arg1) (lead t) p) n k
  rw [plane_x, plane_y]

/-- An index of the array is in grid point `t`'s block iff each coordinate is in the block's range on its axis. -/
theorem l1_mem_blk (t : Fin cfg0.N) (i : S16x8x64x64.Idx) :
    i ∈ ((cfg0.win 4).blk t).view.set ↔ ∀ a : Fin 4, win0_4.index t a * S1x8x64x64.size a ≤ (i a).val ∧ (i a).val < win0_4.index t a * S1x8x64x64.size a + S1x8x64x64.size a := by
  show i ∈ ((View.whole main_v0_2).slice (win0_4.rect t)).set ↔ _
  rw [View.set_slice_whole, Rect.mem_set_unit]
  exact Iff.rfl

/-- Every index of the array is in the block of the grid point its leading coordinate names. -/
theorem l1_cover (i : S16x8x64x64.Idx) :
    ∃ t : Fin cfg0.N, (cfg0.win 4).flush t = true ∧ i ∈ ((cfg0.win 4).blk t).view.set := by
  have hi0 : (i 0).val < 16 := (i 0).isLt
  have hi1 : (i 1).val < 8 := (i 1).isLt
  have hi2 : (i 2).val < 64 := (i 2).isLt
  have hi3 : (i 3).val < 64 := (i 3).isLt
  obtain ⟨t, ht⟩ : ∃ t : Fin cfg0.N, t.val = (i 0).val := ⟨⟨(i 0).val, Nat.lt_of_lt_of_eq hi0 N_0.symm⟩, rfl⟩
  obtain ⟨-, -, h2, h3, h4⟩ := index_facts t
  obtain ⟨e0, e1, e2, e3⟩ := h4
  refine ⟨t, flush0_4 t, ?_⟩
  rw [l1_mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 8 ≤ (i 1).val ∧ (i 1).val < win0_4.index t (1 : Fin 4) * 8 + 8; omega
  | ⟨2, _⟩ => show win0_4.index t (2 : Fin 4) * 64 ≤ (i 2).val ∧ (i 2).val < win0_4.index t (2 : Fin 4) * 64 + 64; omega
  | ⟨3, _⟩ => show win0_4.index t (3 : Fin 4) * 64 ≤ (i 3).val ∧ (i 3).val < win0_4.index t (3 : Fin 4) * 64 + 64; omega

/-- After the last grid point the array holds the l1 table of the two arguments. -/
theorem l1_final (c : Dev nD) :
    (dats m 0 c).arrAt 4 cfg0.N = l1Table (arrIn m c main_arg0) (arrIn m c main_arg1) :=
  (dats m 0 c).arrAt_eq_of_cover 4 (tableOf l1Entry (arrIn m c main_arg0) (arrIn m c main_arg1)) (fun t _ => l1_flushed m c t) l1_cover

/-! ## The host lines: the three tables stacked -/

/-- Three planes of tables, each given a trailing unit axis, joined along it and reshaped to the result's shape. -/
def stackPlanes (a b c : FVec Ideal S16x8x64x64 .f32) : FVec Ideal S16x32768x3 .f32 :=
  shapeCast S16x32768x3
    (concatenate S16x8x64x64x3 4
      [⟨S16x8x64x64x1, broadcastInDim S16x8x64x64x1 ![0, 1, 2, 3] bcast_S16x8x64x64_S16x8x64x64x1_0_1_2_3 a⟩,
       ⟨S16x8x64x64x1, broadcastInDim S16x8x64x64x1 ![0, 1, 2, 3] bcast_S16x8x64x64_S16x8x64x64x1_0_1_2_3 b⟩,
       ⟨S16x8x64x64x1, broadcastInDim S16x8x64x64x1 ![0, 1, 2, 3] bcast_S16x8x64x64_S16x8x64x64x1_0_1_2_3 c⟩]
      concatenates_S16x8x64x64x1_S16x8x64x64x1_S16x8x64x64x1_S16x8x64x64x3_d4)
    shapeCasts_S16x8x64x64x3_S16x32768x3

theorem stackPlanes_congr {a a' b b' c c' : FVec Ideal S16x8x64x64 .f32} (ha : a = a') (hb : b = b') (hc : c = c') :
    stackPlanes a b c = stackPlanes a' b' c' := by subst ha; subst hb; subst hc; rfl

/-- What the five host lines leave in the result buffer: the stack of the three result arrays as the region left them. -/
theorem tail_value (c : Dev nD) :
    Pipeline.afterTail₀ cfgs (dats m) 0 (atEntry m) [hostOps1] c main_v5
      = stackPlanes
          (Pipeline.withArrays (cfgs 0).spec c (atEntry m c) (fun w => (dats m 0 c).arrAt w (cfgs 0).N) (Proc.devRef .tc main_v0_0))
          (Pipeline.withArrays (cfgs 0).spec c (atEntry m c) (fun w => (dats m 0 c).arrAt w (cfgs 0).N) (Proc.devRef .tc main_v0_1))
          (Pipeline.withArrays (cfgs 0).spec c (atEntry m c) (fun w => (dats m 0 c).arrAt w (cfgs 0).N) (Proc.devRef .tc main_v0_2)) := by
  unfold Pipeline.afterTail₀
  show StableHlo.after hostOps1 _ (Proc.devRef .tc main_v5) = _
  after_results_simp
  rfl

/-- So the program's result is the stack of the three tables of the two arguments. -/
theorem result_value (c : Dev nD) :
    Pipeline.afterTail₀ cfgs (dats m) 0 (atEntry m) [hostOps1] c main_v5
      = stackPlanes (cosTable (m ((c : Thread nD τ).loc main_arg0)) (m ((c : Thread nD τ).loc main_arg1)))
          (l2Table (m ((c : Thread nD τ).loc main_arg0)) (m ((c : Thread nD τ).loc main_arg1)))
          (l1Table (m ((c : Thread nD τ).loc main_arg0)) (m ((c : Thread nD τ).loc main_arg1))) :=
  (tail_value m c).trans (stackPlanes_congr
    ((Pipeline.withArrays_arr spec0 launch0.win.arr_inj c (atEntry m c) (fun w => (dats m 0 c).arrAt w (cfgs 0).N) 2).trans (cos_final m c))
    ((Pipeline.withArrays_arr spec0 launch0.win.arr_inj c (atEntry m c) (fun w => (dats m 0 c).arrAt w (cfgs 0).N) 3).trans (l2_final m c))
    ((Pipeline.withArrays_arr spec0 launch0.win.arr_inj c (atEntry m c) (fun w => (dats m 0 c).arrAt w (cfgs 0).N) 4).trans (l1_final m c)))

/-! ## The run, read -/

/-- Every weakly fair execution of the idealized kernel's @main terminates with its result at the stack of the three tables of
    its arguments, and the arguments unchanged. -/
theorem run : θ_run defs (onTc (τ := τ) (main (F := Ideal))) ⟨m, fun _ => 0, ρ⟩ fun r => ∀ c : Dev nD,
      r.2.mem ((c.tc : Thread nD τ).loc main_v5)
        = stackPlanes (cosTable (m ((c : Thread nD τ).loc main_arg0)) (m ((c : Thread nD τ).loc main_arg1)))
            (l2Table (m ((c : Thread nD τ).loc main_arg0)) (m ((c : Thread nD τ).loc main_arg1)))
            (l1Table (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans (result_value m c),
     ((h c).1 0).trans (((dats m 0 c).arrAt_in 0 rfl _).trans ((A_eq m c 0).trans (arrIn_eq m c main_arg0))),
     ((h c).1 1).trans (((dats m 0 c).arrAt_in 1 rfl _).trans ((A_eq m c 1).trans (arrIn_eq m c main_arg1)))⟩)
    (run_main (F := Ideal) m ρ)

end Cert.KernelIdeal.Tables

end
-- ==== Proof.RefTables.lean ====
/-
  The reference's three planes are the specification's tables.

  The reference normalises every row of both arguments (the host's sum of squares from zero, its square root, the larger of
  that and the constant, the quotient), contracts the last axis of the two normalised arrays position by position, and
  forms every row-against-row difference over a five-axis array, whose squares and absolute values it sums over the last
  axis from zero. Read one operation at a time at an index whose coordinates are named, every stage is the specification's
  entry for the matrices at the index's position: the host's sums are the sums over the 128 columns plus a zero, and the
  broadcasts only drop or repeat coordinates.
-/
import proofs.«102027_j84593675862346_1_alg».proof.Proof.Gen.ReferenceIdeal.Read
import proofs.«102027_j84593675862346_1_alg».proof.Proof.PairTables

noncomputable section

namespace Cert.ReferenceIdeal.Tables

open Idealize.ShloMosaic Idealize.ShloMosaic.ValueIdx Cert.ReferenceIdeal Cert.ReferenceIdeal.Gen Cert.ReferenceIdeal.Read Cert.PairTables

/-! ## The normalised rows -/

/-- The clamped norm of row `n` of the matrix at `(s, p)` of the left argument, as the reference forms it: the square root of the host's sum
    of squares from zero, then the larger of that and the constant. -/
theorem clamp_left (x : (⟨S16x8x64x128, .f32⟩ : BufTy).Contents (Elt Ideal)) (s : Fin 16) (p : Fin 8) (n : Fin 64) :
    val_main_v2 (F := Ideal) x (ix4 s p n 0) = max (rowNorm (matOf x s p) n) normFloor := by
  rw [val_main_v2_apply, val_main_v0_apply, val_main_call0_v2_apply, val_main_call0_v1_apply, val_main_v1_apply]
  simp only [val_main_call0_cst_apply, val_main_cst_apply, val_main_call0_v0_apply]
  show max (Ideal.sqrt (Ideal.ofBits .f32 0x00000000#32 + _)) (Ideal.ofBits .f32 0x2B8CBCCC#32) = _
  rw [Ideal.ofBits_zero_f32, zero_add]
  unfold rowNorm normFloor
  refine congrArg (fun t => max (Ideal.sqrt t) (Ideal.ofBits .f32 0x2B8CBCCC#32)) (Finset.sum_congr rfl fun d _ => ?_)
  have e : idx_main_call0_v1 (idx_main_call0_v2 (ix4 s p n 0)) d = ix4 s p n d := funext fun a => Fin.ext (by match a with | ⟨0, _⟩ => rfl | ⟨1, _⟩ => rfl | ⟨2, _⟩ => rfl | ⟨3, _⟩ => rfl)
  rw [e]
  rfl

/-- An entry of the left argument divided by its row's clamped norm. -/
theorem unit_left (x : (⟨S16x8x64x128, .f32⟩ : BufTy).Contents (Elt Ideal)) (s : Fin 16) (p : Fin 8) (n : Fin 64) (d : Fin 128) :
    val_main_v4 (F := Ideal) x (ix4 s p n d) = unitEntry (matOf x s p) n d := by
  rw [val_main_v4_apply, val_main_v3_apply]
  have e : idx_main_v3 (ix4 s p n d) = ix4 s p n 0 := funext fun a => Fin.ext (by match a with | ⟨0, _⟩ => rfl | ⟨1, _⟩ => rfl | ⟨2, _⟩ => rfl | ⟨3, _⟩ => rfl)
  rw [e, clamp_left]
  rfl

/-- The clamped norm of row `n` of the matrix at `(s, p)` of the right argument, as the reference forms it: the square root of the host's sum
    of squares from zero, then the larger of that and the constant. -/
theorem clamp_right (y : (⟨S16x8x64x128, .f32⟩ : BufTy).Contents (Elt Ideal)) (s : Fin 16) (p : Fin 8) (n : Fin 64) :
    val_main_v7 (F := Ideal) y (ix4 s p n 0) = max (rowNorm (matOf y s p) n) normFloor := by
  rw [val_main_v7_apply, val_main_v5_apply, val_main_call1_v2_apply, val_main_call1_v1_apply, val_main_v6_apply]
  simp only [val_main_call1_cst_apply, val_main_cst_0_apply, val_main_call1_v0_apply]
  show max (Ideal.sqrt (Ideal.ofBits .f32 0x00000000#32 + _)) (Ideal.ofBits .f32 0x2B8CBCCC#32) = _
  rw [Ideal.ofBits_zero_f32, zero_add]
  unfold rowNorm normFloor
  refine congrArg (fun t => max (Ideal.sqrt t) (Ideal.ofBits .f32 0x2B8CBCCC#32)) (Finset.sum_congr rfl fun d _ => ?_)
  have e : idx_main_call1_v1 (idx_main_call1_v2 (ix4 s p n 0)) d = ix4 s p n d := funext fun a => Fin.ext (by match a with | ⟨0, _⟩ => rfl | ⟨1, _⟩ => rfl | ⟨2, _⟩ => rfl | ⟨3, _⟩ => rfl)
  rw [e]
  rfl

/-- An entry of the right argument divided by its row's clamped norm. -/
theorem unit_right (y : (⟨S16x8x64x128, .f32⟩ : BufTy).Contents (Elt Ideal)) (s : Fin 16) (p : Fin 8) (n : Fin 64) (d : Fin 128) :
    val_main_v9 (F := Ideal) y (ix4 s p n d) = unitEntry (matOf y s p) n d := by
  rw [val_main_v9_apply, val_main_v8_apply]
  have e : idx_main_v8 (ix4 s p n d) = ix4 s p n 0 := funext fun a => Fin.ext (by match a with | ⟨0, _⟩ => rfl | ⟨1, _⟩ => rfl | ⟨2, _⟩ => rfl | ⟨3, _⟩ => rfl)
  rw [e, clamp_right]
  rfl

/-! ## The three planes -/

/-- The contraction over the last axis, batched over the positions, is the plane of clamped cosines. -/
theorem cos_plane (x y : (⟨S16x8x64x128, .f32⟩ : BufTy).Contents (Elt Ideal)) :
    val_main_v10 (F := Ideal) x y = cosTable x y := by
  funext i
  obtain ⟨s, p, n, k, rfl⟩ : ∃ (s : Fin 16) (p : Fin 8) (n k : Fin 64), i = ix4 s p n k := ⟨i 0, i 1, i 2, i 3, eq_ix4 i⟩
  rw [val_main_v10_apply]
  unfold cosTable cosEntry
  refine Finset.sum_congr rfl fun d _ => ?_
  have el : lidx_main_v10 (ix4 s p n k) d = ix4 s p n d := funext fun a => Fin.ext (by match a with | ⟨0, _⟩ => rfl | ⟨1, _⟩ => rfl | ⟨2, _⟩ => rfl | ⟨3, _⟩ => rfl)
  have er : ridx_main_v10 (ix4 s p n k) d = ix4 s p k d := funext fun a => Fin.ext (by match a with | ⟨0, _⟩ => rfl | ⟨1, _⟩ => rfl | ⟨2, _⟩ => rfl | ⟨3, _⟩ => rfl)
  rw [el, er, unit_left, unit_right]

/-- An entry of the five-axis array of differences: row `n` of the first matrix minus row `k` of the second, at column `d`. -/
theorem diff_apply (x y : (⟨S16x8x64x128, .f32⟩ : BufTy).Contents (Elt Ideal)) (s : Fin 16) (p : Fin 8) (n k : Fin 64) (d : Fin 128) :
    val_main_v15 (F := Ideal) x y (ix5 s p n k d) = matOf x s p n d - matOf y s p k d := by
  rw [val_main_v15_apply, val_main_v13_apply, val_main_v14_apply, val_main_v11_apply, val_main_v12_apply]
  have e1 : idx_main_v11 (idx_main_v13 (ix5 s p n k d)) = ix4 s p n d := funext fun a => Fin.ext (by match a with | ⟨0, _⟩ => rfl | ⟨1, _⟩ => rfl | ⟨2, _⟩ => rfl | ⟨3, _⟩ => rfl)
  have e2 : idx_main_v12 (idx_main_v14 (ix5 s p n k d)) = ix4 s p k d := funext fun a => Fin.ext (by match a with | ⟨0, _⟩ => rfl | ⟨1, _⟩ => rfl | ⟨2, _⟩ => rfl | ⟨3, _⟩ => rfl)
  rw [e1, e2]
  rfl

/-- The square root of the host's sum of the squared differences is the plane of Euclidean distances. -/
theorem l2_plane (x y : (⟨S16x8x64x128, .f32⟩ : BufTy).Contents (Elt Ideal)) :
    val_main_v18 (F := Ideal) x y = l2Table x y := by
  funext i
  obtain ⟨s, p, n, k, rfl⟩ : ∃ (s : Fin 16) (p : Fin 8) (n k : Fin 64), i = ix4 s p n k := ⟨i 0, i 1, i 2, i 3, eq_ix4 i⟩
  rw [val_main_v18_apply, val_main_v17_apply, val_main_cst_1_apply]
  show Ideal.sqrt (Ideal.ofBits .f32 0x00000000#32 + _) = _
  rw [Ideal.ofBits_zero_f32, zero_add]
  unfold l2Table l2Entry
  refine congrArg Ideal.sqrt (Finset.sum_congr rfl fun d _ => ?_)
  have e : idx_main_v17 (ix4 s p n k) d = ix5 s p n k d := funext fun a => Fin.ext (by match a with | ⟨0, _⟩ => rfl | ⟨1, _⟩ => rfl | ⟨2, _⟩ => rfl | ⟨3, _⟩ => rfl | ⟨4, _⟩ => rfl)
  rw [e, val_main_v16_apply, diff_apply]
  rfl

/-- The host's sum of the absolute differences is the plane of absolute-difference sums. -/
theorem l1_plane (x y : (⟨S16x8x64x128, .f32⟩ : BufTy).Contents (Elt Ideal)) :
    val_main_v20 (F := Ideal) x y = l1Table x y := by
  funext i
  obtain ⟨s, p, n, k, rfl⟩ : ∃ (s : Fin 16) (p : Fin 8) (n k : Fin 64), i = ix4 s p n k := ⟨i 0, i 1, i 2, i 3, eq_ix4 i⟩
  rw [val_main_v20_apply, val_main_cst_2_apply]
  show Ideal.ofBits .f32 0x00000000#32 + _ = _
  rw [Ideal.ofBits_zero_f32, zero_add]
  unfold l1Table l1Entry
  refine Finset.sum_congr rfl fun d _ => ?_
  have e : idx_main_v20 (ix4 s p n k) d = ix5 s p n k d := funext fun a => Fin.ext (by match a with | ⟨0, _⟩ => rfl | ⟨1, _⟩ => rfl | ⟨2, _⟩ => rfl | ⟨3, _⟩ => rfl | ⟨4, _⟩ => rfl)
  rw [e, val_main_v19_apply, diff_apply]
  rfl

end Cert.ReferenceIdeal.Tables

end
-- ==== Proof.lean ====
/-
  The proof of `Cert.Claim`: the kernel and its reference compute the same three tables of row-against-row quantities.

  Both programs take two arrays of 16 × 8 matrices of 64 rows by 128 columns. For every pair of matrices at one position they
  form, for each row `n` of the first and each row `k` of the second, the rows' inner product after each row is divided by the
  larger of its Euclidean norm and a fixed constant, the rows' Euclidean distance, and the sum of the absolute differences of
  their entries (Proof/PairTables.lean); the three tables are then laid side by side along a new last axis and reshaped.

  The kernel does this in one pipelined region over the sixteen leading positions — its body repeating one computation for
  the eight matrices of a block (Proof/KernelRows.lean) and writing three output blocks back (Proof/KernelIdealRegion.lean,
  Proof/KernelTables.lean) — followed by the host lines that stack the planes; the reference does it by whole-array host
  operations (Proof/RefTables.lean). Over the extended reals every stage on either side is the same sum over the 128
  columns: narrowing to sixteen bits is the identity, the matrix unit's product into zero and the host's contraction are
  the same sum of products, and a lane sum and a host sum from zero are the same sum. No law beyond reading the sums is needed, so the
  precondition is not used. The word-level kernel's frame is the same run at the word-level instance
  (Proof/KernelRegion.lean); the reference's frame is its run with the result dropped; no rewrite was applied in printing the
  idealized kernel, so there is nothing to preserve.
-/
import proofs.«102027_j84593675862346_1_alg».proof.Defs
import proofs.«102027_j84593675862346_1_alg».proof.Proof.Gen.Kernel
import proofs.«102027_j84593675862346_1_alg».proof.Proof.Gen.KernelIdeal
import proofs.«102027_j84593675862346_1_alg».proof.Proof.Gen.ReferenceIdeal
import proofs.«102027_j84593675862346_1_alg».proof.Proof.Gen.Pre_finite_inputs
import proofs.«102027_j84593675862346_1_alg».proof.Proof.Gen.ReferenceIdeal.Run
import proofs.«102027_j84593675862346_1_alg».proof.Proof.Gen.ReferenceIdeal.Read
import proofs.«102027_j84593675862346_1_alg».proof.Proof.KernelRegion
import proofs.«102027_j84593675862346_1_alg».proof.Proof.KernelIdealRegion
import proofs.«102027_j84593675862346_1_alg».proof.Proof.KernelTables
import proofs.«102027_j84593675862346_1_alg».proof.Proof.RefTables
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Region.frame m ρ

/-- So does the idealized kernel. -/
theorem frame_kernelIdeal : Cert.frame_KernelIdeal := fun m ρ _ => Cert.KernelIdeal.Region.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The reference's result, as its run states it, is the stack of the specification's three tables of its arguments: its three planes
    are those tables, and the shared last steps (a trailing unit axis on each plane, the join, the reshape) are applied to them unopened. -/
theorem reference_value (x y : (⟨Cert.ReferenceIdeal.S16x8x64x128, .f32⟩ : BufTy).Contents (Elt Ideal)) :
    Cert.ReferenceIdeal.Read.val_main_v25 (F := Ideal) x y
      = Cert.KernelIdeal.Tables.stackPlanes (Cert.PairTables.cosTable x y) (Cert.PairTables.l2Table x y) (Cert.PairTables.l1Table x y) := by
  unfold Cert.ReferenceIdeal.Read.val_main_v25 Cert.ReferenceIdeal.Read.val_main_v24 Cert.ReferenceIdeal.Read.val_main_v21
    Cert.ReferenceIdeal.Read.val_main_v22 Cert.ReferenceIdeal.Read.val_main_v23
  rw [Cert.ReferenceIdeal.Tables.cos_plane, Cert.ReferenceIdeal.Tables.l2_plane, Cert.ReferenceIdeal.Tables.l1_plane]
  rfl

/-- From memories agreeing on the arguments both idealized programs end with the same result: the stack of the three tables. -/
theorem algebraic : Cert.algebraic_KernelIdeal_ReferenceIdeal := by
  intro m ρ m' ρ' _ hagree
  refine ⟨_, Cert.KernelIdeal.Tables.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v25_eq _ _).trans (reference_value _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
